-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x40 .f32) (main_arg14 : FVec F S40 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x40 .f32 := Host.absf main_arg13
  let main_cst_22 : FVec F S_ .f32 := constant S_ .f32 0x7F800000#32
  let main_v60 : FVec F S128x40 .f32 := broadcastInDim S128x40 ![] bcast_S_S128x40 main_cst_22
  let main_v61 : IVec S128x40 1 := cmpf .olt main_v59 main_v60
  let main_c_23 : IVec S_ 1 := constantI S_ 1 1#1
  let main_v62 : IVec S_ 1 := (fun x v => Host.reduce IntOp.andi x v reducesTo_S128x40_S_d0_1 h_S_) main_v61 main_c_23
  let main_v63 : IVec S_ 1 := andi main_v58 main_v62
  let main_v64 : FVec F S40 .f32 := Host.absf main_arg14
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x40 .f32) (main_arg14 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x40 .f32) (main_arg14 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x40 .f32) (main_arg14 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 87
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x40, .f32⟩
  | .hbm, ⟨14, _⟩ => ⟨S40, .f32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S1x128, .f32⟩
  | .hbm, ⟨85, _⟩ => ⟨S1x40, .f32⟩
  | .hbm, ⟨86, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x40, .f32⟩
  | .local _ .vmem, ⟨32, _⟩ => ⟨S1x40, .f32⟩
  | .local _ .vmem, ⟨33, _⟩ => ⟨S5000x40, .f32⟩
  | .local _ .vmem, ⟨34, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S50000x40.size a
  hwx3_5 : ∀ i : grid3.Coords, EltTy.bits .f32 = 32 ∨ (Rect.block (s := S50000x40) S5000x40.size (cc3_transform_5 i) (hinb3_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x40, .f32⟩
  | 14 => ⟨S40, .f32⟩
  | 15 => ⟨S1x600000, .i32⟩
  | 16 => ⟨S600000, .i32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S_, .f32⟩
  | 33 => ⟨S600000, .f32⟩
  | 34 => ⟨S_, .f32⟩
  | 35 => ⟨S50000, .f32⟩
  | 36 => ⟨S600000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S_, .f32⟩
  | 68 => ⟨S600000, .f32⟩
  | 69 => ⟨S_, .f32⟩
  | 70 => ⟨S50000, .f32⟩
  | 71 => ⟨S600000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S_, .f32⟩
  | 103 => ⟨S600000, .f32⟩
  | 104 => ⟨S_, .f32⟩
  | 105 => ⟨S50000, .f32⟩
  | 106 => ⟨S600000x1, .i32⟩
  | 107 => ⟨S50000, .f32⟩
  | 108 => ⟨S_, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x40, .f32⟩
  | 4 => ⟨S1x40, .f32⟩
  | 5 => ⟨S50000x40, .f32⟩
  | 6 => ⟨S50000x40, .f32⟩
  | 7 => ⟨S_, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x40, .f32⟩
  | 14 => ⟨S50000x40, .f32⟩
  | 15 => ⟨S50000x40, .f32⟩
  | 16 => ⟨S_, .f32⟩
  | 17 => ⟨S50000, .f32⟩
  | 18 => ⟨S50000x1, .f32⟩
  | 19 => ⟨S50000x1, .f32⟩
  | 20 => ⟨S50000x40, .f32⟩
  | 21 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call3_cst : Ref sig .tc := ⟨.hbm, 86, rfl⟩
abbrev main_call3_v0 : Ref sig .tc := ⟨.hbm, 87, rfl⟩
abbrev main_v53 : Ref sig .tc := ⟨.hbm, 88, rfl⟩
abbrev main_c_10 : Ref sig .tc := ⟨.hbm, 89, rfl⟩
abbrev main_v54 : Ref sig .tc := ⟨.hbm, 90, rfl⟩
abbrev main_v55 : Ref sig .tc := ⟨.hbm, 91, rfl⟩
abbrev main_c_11 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_cst_14 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_call4_v0 : Ref sig .tc := ⟨.hbm, 109, rfl⟩
abbrev main_call4_v1 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call5_cst : Ref sig .tc := ⟨.hbm, 121, rfl⟩
abbrev main_call5_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_call6_cst : Ref sig .tc := ⟨.hbm, 128, rfl⟩
abbrev main_call6_v0 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_call7_cst : Ref sig .tc := ⟨.hbm, 135, rfl⟩
abbrev main_call7_v0 : Ref sig .tc := ⟨.hbm, 136, rfl⟩
abbrev main_call7_cst_0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_v6 : Ref sig .tc := ⟨.hbm, 143, rfl⟩
abbrev main_call7_cst_1 : Ref sig .tc := ⟨.hbm, 144, rfl⟩
abbrev main_call7_v7 : Ref sig .tc := ⟨.hbm, 145, rfl⟩
abbrev main_call7_v8 : Ref sig .tc := ⟨.hbm, 146, rfl⟩
abbrev main_call7_v9 : Ref sig .tc := ⟨.hbm, 147, rfl⟩
abbrev main_call7_v10 : Ref sig .tc := ⟨.hbm, 148, rfl⟩
abbrev main_v88 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  A three-layer mean-aggregating graph network with a two-layer classifier, written entry by entry on the
  extended reals.

  One layer sends node features `x` and neighbour averages `agg` (both 50000 × 128) to
  `max (agg · Wl + bl + x · Wr) 0`; the classifier sends the last layer's features `h` to the row-wise
  log-softmax of `max (h · W1 + b1) 0 · W2 + b2` (50000 × 40). Every matrix product is a sum over the 128
  contracted coordinates, and the log-softmax of a row `z` is `(z - M) - log (∑ exp (z - M))` with `M` the
  row's maximum, taken as a fold of `max` from the word that denotes -∞.

  The neighbour average itself is `s / d` where `s` is a sum over incoming edges and `d = max 1 (in-degree)`.
  One side computes `s * (1 / d)`, the other `s / d`. On the extended reals these agree as soon as `d ≠ 0`
  (`Ideal.div x d = x * d⁻¹` off zero), and `d ≥ 1` always: no finiteness of `s` or `d` is needed.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

abbrev NodeFeat : Shape := ⟨2, ![50000, 128]⟩
abbrev Weight : Shape := ⟨2, ![128, 128]⟩
abbrev Bias : Shape := ⟨1, ![128]⟩
abbrev OutWeight : Shape := ⟨2, ![128, 40]⟩
abbrev OutBias : Shape := ⟨1, ![40]⟩
abbrev Scores : Shape := ⟨2, ![50000, 40]⟩
abbrev Degree : Shape := ⟨1, ![50000]⟩

/-- Row `r` of `a` against column `q` of `w`: the sum over the 128 contracted coordinates. -/
def rowDot (a : NodeFeat.Idx → EReal) (w : Weight.Idx → EReal) (r : Fin 50000) (q : Fin 128) : EReal :=
  ∑ k : Fin 128, a (ix2 r k) * w (ix2 k q)

/-- One layer: `max (agg · wl + bl + x · wr) 0`, the zero kept as the word that denotes it. -/
def layer (agg x : NodeFeat.Idx → EReal) (wl : Weight.Idx → EReal) (bl : Bias.Idx → EReal) (wr : Weight.Idx → EReal) :
    NodeFeat.Idx → EReal := fun i =>
  max (rowDot agg wl (i 0) (i 1) + bl (ix1 (i 1)) + rowDot x wr (i 0) (i 1)) (Ideal.ofBits .f32 0x00000000#32)

/-- The classifier's hidden layer: `max (h · w1 + b1) 0`. -/
def hidden (h : NodeFeat.Idx → EReal) (w1 : Weight.Idx → EReal) (b1 : Bias.Idx → EReal) : NodeFeat.Idx → EReal := fun i =>
  max (rowDot h w1 (i 0) (i 1) + b1 (ix1 (i 1))) (Ideal.ofBits .f32 0x00000000#32)

/-- Entry `(r, q)` of `a · w2 + b2`. -/
def logit (a : NodeFeat.Idx → EReal) (w2 : OutWeight.Idx → EReal) (b2 : OutBias.Idx → EReal) (r : Fin 50000) (q : Fin 40) : EReal :=
  (∑ k : Fin 128, a (ix2 r k) * w2 (ix2 k q)) + b2 (ix1 q)

/-- A row's maximum: the fold of `max` over its 40 entries from the word that denotes -∞, joined once more with that
    word (both programs take that extra maximum). -/
def rowMax (z : Fin 40 → EReal) : EReal :=
  max (Ideal.ofBits .f32 0xFF800000#32) ((Finset.univ : Finset (Fin 40)).fold max (Ideal.ofBits .f32 0xFF800000#32) z)

/-- Entry `q` of the log-softmax of a row `z`. -/
def logSoftmaxRow (z : Fin 40 → EReal) (q : Fin 40) : EReal :=
  (z q - rowMax z) - Ideal.log (∑ k : Fin 40, Ideal.exp (z k - rowMax z))

/-- The classifier: row-wise log-softmax of `max (h · w1 + b1) 0 · w2 + b2`. -/
def head (h : NodeFeat.Idx → EReal) (w1 : Weight.Idx → EReal) (b1 : Bias.Idx → EReal) (w2 : OutWeight.Idx → EReal)
    (b2 : OutBias.Idx → EReal) : Scores.Idx → EReal := fun i =>
  logSoftmaxRow (fun k => logit (hidden h w1 b1) w2 b2 (i 0) k) (i 1)

/-! ## Dividing by the clipped degree -/

/-- The word `0x3F800000` denotes the real number one. -/
theorem one_word : Ideal.ofBits .f32 0x3F800000#32 = 1 := by
  simp [Ideal.ofBits, Ideal.ieee, -EReal.coe_mul]
  norm_num

/-- A maximum with one is never zero. -/
theorem max_one_ne_zero (d : EReal) : max (Ideal.ofBits .f32 0x3F800000#32) d ≠ 0 := by
  rw [one_word]
  exact ne_of_gt (lt_of_lt_of_le zero_lt_one (le_max_left _ _))

/-- Off zero, multiplying by the reciprocal is dividing: `s * (1 / d) = s / d` on every extended real `s`. -/
theorem mul_recip_eq_div (s d : EReal) (hd : d ≠ 0) :
    s * Ideal.div (Ideal.ofBits .f32 0x3F800000#32) d = Ideal.div s d := by
  rw [one_word]
  unfold Ideal.div
  rw [if_neg hd, if_neg hd, one_mul]

end Cert.Sage

end
-- ==== Proof.BiasRow.lean ====
/-
  A bias vector reaches a kernel as a one-row matrix: `[n]` recast to `[1, n]`. Read back as a function of the
  column, the one-row matrix is the vector it came from.
-/
import Idealize.ShloMosaic.PureOps.Ideal
import Idealize.ShloMosaic.Lib.ValueLayout
import Idealize.ShloMosaic.Lib.ValueIdx

noncomputable section

namespace Cert.Sage

open Idealize.ShloMosaic Idealize.ShloMosaic.ValueIdx

/-- A `[1, n]` array as a function of its column. -/
def rowOf {n : Nat} (b : (⟨2, ![1, n]⟩ : Shape).Idx → EReal) : (⟨1, ![n]⟩ : Shape).Idx → EReal :=
  fun j => b (ix2 (0 : Fin 1) (j 0))

/-- The row of a vector recast as a one-row matrix is the vector. -/
theorem rowOf_shapeCast {n : Nat} (b : (⟨1, ![n]⟩ : Shape).Idx → EReal) (h : (⟨1, ![n]⟩ : Shape).ShapeCasts ⟨2, ![1, n]⟩) :
    rowOf (shapeCast ⟨2, ![1, n]⟩ b h) = b := by
  funext j
  unfold rowOf
  exact (shapeCast_a_1a_apply b h (0 : Fin 1) (j 0)).trans (congrArg b (eq_ix1 j).symm)

end Cert.Sage

end
-- ==== Proof.KernelLayer0.lean ====
/-
  The first combine region, read as a whole-array equation.

  The region walks ten row-blocks of 5000 rows. On each it stores, entry by entry, the maximum with zero of
  (neighbour averages · left weights) + bias + (features · right weights), every product a sum over the 128 contracted
  coordinates. Block `t` of the output is therefore block `t` of the layer's value on the whole arrays, and the ten
  blocks tile the 50000 rows, so the output array ends holding the layer's value. Nothing is assumed of the arrays
  the region finds: the equation holds for any contents.
-/
import proofs.«165760_j91216515432812_1_alg».proof.Proof.Gen.KernelIdeal.Frame
import proofs.«165760_j91216515432812_1_alg».proof.Proof.Spec
import proofs.«165760_j91216515432812_1_alg».proof.Proof.BiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## A block product at an entry

The product of a 5000 × 128 block with a 128 × 128 matrix contracts the block's second axis against the matrix's
first. The four facts below say which coordinate of each factor an output entry `(i 0, i 1)` and a contracted
position read. -/

/-- The left factor's row is the output's row. -/
theorem prod0_left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left factor's column is the contracted position. -/
theorem prod0_left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right factor's row is the contracted position. -/
theorem prod0_right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right factor's column is the output's column. -/
theorem prod0_right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Accumulated into zero, entry `(p, q)` of the product is the sum over the 128 contracted positions of the
    products of row `p` of the block with column `q` of the matrix. -/
theorem prod0_at {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact prod0_left_row _ _
    | ⟨1, _⟩ => exact (prod0_left_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (prod0_right_row _ _).trans hk
    | ⟨1, _⟩ => exact prod0_right_col _ _)
  rw [el, er]

/-! ## The body's value at an entry -/

/-- Entry `(p, q)` of what the body stores: the maximum with zero of (neighbour block · left weights) + bias + (feature
    block · right weights), the two narrowings to the short format being the identity on extended reals. -/
theorem body0_at (agg x : Vec Ideal S5000x128 .f32) (wl wr : Vec Ideal S128x128 .f32) (b : Vec Ideal S1x128 .f32)
    (p : Fin 5000) (q : Fin 128) :
    k0_pay1 (F := Ideal) agg x wl wr b (ix2 p q)
      = max ((∑ k : Fin 128, agg (ix2 p k) * wl (ix2 k q)) + b (ix2 (0 : Fin 1) q) + ∑ k : Fin 128, x (ix2 p k) * wr (ix2 k q))
          (Ideal.ofBits .f32 0x00000000#32) := by
  unfold k0_pay1
  rw [maximumf_apply, addf_apply, addf_apply, broadcast_apply, prod0_at, prod0_at, shapeCast_self, shapeCast_self]
  rw [show broadcastTo S5000x128 b broadcasts_S1x128_S5000x128 (ix2 p q) = b (ix2 (0 : Fin 1) q) from
    broadcastTo_1b_ab_apply b broadcasts_S1x128_S5000x128 p q]
  rfl

/-! ## From blocks to the array

The grid has ten points. Point `t` works on rows `t · 5000 … t · 5000 + 4999` of the two node arrays and of the
output; the two weight matrices and the bias row are read whole at every point. -/

section Blocks

variable (V : (c : Dev nD) → (b : Ref sig .tc) → Buf (Elt Ideal) ((c : Thread nD τ).loc b))

/-- The two zero offsets, as the constant function. -/
theorem origin0 : (![0, 0] : Fin 2 → Nat) = fun _ => 0 := funext fun a => by fin_cases a <;> rfl

/-- The block each window is on at each of the ten points: the three row-blocked windows on block `(t, 0)`, the three
    whole ones on block `(0, 0)`. -/
theorem block_of_point0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block, as a row of the 50000-row arrays. -/
def row0 (t : Fin cfg0.N) (p : Fin 5000) : Fin 50000 :=
  ⟨t.val * 5000 + p.val, by have ht : t.val < 10 := lt_of_lt_of_eq t.isLt N_0; have hp := p.isLt; omega⟩

/-- The neighbour-average block at point `t` is rows `t · 5000 + p` of its array. -/
theorem agg_block0 (c : Dev nD) (t : Fin cfg0.N) (p : Fin 5000) (k : Fin 128) :
    (iblk0 V c 0 t : S5000x128.Idx → EReal) (ix2 p k) = (V c main_v23 : S50000x128.Idx → EReal) (ix2 (row0 t p) k) := by
  show (V c main_v23 : S50000x128.Idx → EReal) (((cfg0.win 0).blk t).view.emb (ix2 p k)) = _
  refine congrArg _ (funext fun a => Fin.ext ?_)
  obtain ⟨e0, e1, -⟩ := block_of_point0 t
  match a with
  | ⟨0, _⟩ => show win0_0.index t (0 : Fin 2) * 5000 + 1 * p.val = t.val * 5000 + p.val; omega
  | ⟨1, _⟩ => show win0_0.index t (1 : Fin 2) * 128 + 1 * k.val = k.val; omega

/-- The feature block at point `t` is rows `t · 5000 + p` of its array. -/
theorem feat_block0 (c : Dev nD) (t : Fin cfg0.N) (p : Fin 5000) (k : Fin 128) :
    (iblk0 V c 1 t : S5000x128.Idx → EReal) (ix2 p k) = (V c main_arg0 : S50000x128.Idx → EReal) (ix2 (row0 t p) k) := by
  show (V c main_arg0 : S50000x128.Idx → EReal) (((cfg0.win 1).blk t).view.emb (ix2 p k)) = _
  refine congrArg _ (funext fun a => Fin.ext ?_)
  obtain ⟨-, -, e0, e1, -⟩ := block_of_point0 t
  match a with
  | ⟨0, _⟩ => show win0_1.index t (0 : Fin 2) * 5000 + 1 * p.val = t.val * 5000 + p.val; omega
  | ⟨1, _⟩ => show win0_1.index t (1 : Fin 2) * 128 + 1 * k.val = k.val; omega

/-- The left weights' block is the whole matrix at every point. -/
theorem wl_block0 (c : Dev nD) (t : Fin cfg0.N) (k q : Fin 128) :
    (iblk0 V c 2 t : S128x128.Idx → EReal) (ix2 k q) = (V c main_arg2 : S128x128.Idx → EReal) (ix2 k q) := by
  show (V c main_arg2 : S128x128.Idx → EReal) (((cfg0.win 2).blk t).view.emb (ix2 k q)) = _
  refine congrArg _ (funext fun a => Fin.ext ?_)
  obtain ⟨-, -, -, -, e0, e1, -⟩ := block_of_point0 t
  match a with
  | ⟨0, _⟩ => show win0_2.index t (0 : Fin 2) * 128 + 1 * k.val = k.val; omega
  | ⟨1, _⟩ => show win0_2.index t (1 : Fin 2) * 128 + 1 * q.val = q.val; omega

/-- The bias row's block is the whole row at every point. -/
theorem bias_block0 (c : Dev nD) (t : Fin cfg0.N) (q : Fin 128) :
    (iblk0 V c 3 t : S1x128.Idx → EReal) (ix2 (0 : Fin 1) q) = (V c main_v24 : S1x128.Idx → EReal) (ix2 (0 : Fin 1) q) := by
  show (V c main_v24 : S1x128.Idx → EReal) (((cfg0.win 3).blk t).view.emb (ix2 (0 : Fin 1) q)) = _
  refine congrArg _ (funext fun a => Fin.ext ?_)
  obtain ⟨-, -, -, -, -, -, e0, e1, -⟩ := block_of_point0 t
  match a with
  | ⟨0, _⟩ => show win0_3.index t (0 : Fin 2) * 1 + 1 * 0 = 0; omega
  | ⟨1, _⟩ => show win0_3.index t (1 : Fin 2) * 128 + 1 * q.val = q.val; omega

/-- The right weights' block is the whole matrix at every point. -/
theorem wr_block0 (c : Dev nD) (t : Fin cfg0.N) (k q : Fin 128) :
    (iblk0 V c 4 t : S128x128.Idx → EReal) (ix2 k q) = (V c main_arg4 : S128x128.Idx → EReal) (ix2 k q) := by
  show (V c main_arg4 : S128x128.Idx → EReal) (((cfg0.win 4).blk t).view.emb (ix2 k q)) = _
  refine congrArg _ (funext fun a => Fin.ext ?_)
  obtain ⟨-, -, -, -, -, -, -, -, e0, e1, -⟩ := block_of_point0 t
  match a with
  | ⟨0, _⟩ => show win0_4.index t (0 : Fin 2) * 128 + 1 * k.val = k.val; omega
  | ⟨1, _⟩ => show win0_4.index t (1 : Fin 2) * 128 + 1 * q.val = q.val; omega

/-- What the body stores at entry `y` of point `t`'s block is the layer's value at row `t · 5000 + y 0`, column `y 1`. -/
theorem stored_entry0 (c : Dev nD) (t : Fin cfg0.N) (y : S5000x128.Idx) :
    k0_pay1 (F := Ideal) (iblk0 V c 0 t) (iblk0 V c 1 t) (iblk0 V c 2 t) (iblk0 V c 4 t) (iblk0 V c 3 t) y
      = Cert.Sage.layer (V c main_v23) (V c main_arg0) (V c main_arg2) (Cert.Sage.rowOf (V c main_v24)) (V c main_arg4)
          (ix2 (row0 t (y 0)) (y 1)) := by
  obtain ⟨p, q, rfl⟩ : ∃ (p : Fin 5000) (q : Fin 128), y = ix2 p q := ⟨y 0, y 1, eq_ix2 y⟩
  refine (body0_at (iblk0 V c 0 t) (iblk0 V c 1 t) (iblk0 V c 2 t) (iblk0 V c 4 t) (iblk0 V c 3 t) p q).trans ?_
  simp only [agg_block0 V c t, feat_block0 V c t, wl_block0 V c t, bias_block0 V c t, wr_block0 V c t]
  rfl

/-- What point `t` writes back is block `t` of the layer's value on the arrays as the region finds them. -/
theorem written0 (c : Dev nD) (t : Fin cfg0.N) :
    (dat0 (F := Ideal) V c).flushed 5 t
      = ((cfg0.win 5).blk t).view.read (Elt Ideal)
          (Cert.Sage.layer (V c main_v23) (V c main_arg0) (V c main_arg2) (Cert.Sage.rowOf (V c main_v24)) (V c main_arg4)) := by
  show (cfg0.win 5).cut (grid0.coords t) ((dat0 V c).after 5 t) = _
  rw [after0_5]
  unfold out0_5
  rw [View.canon_unit_zero origin0]
  simp only [View.ld_unit_zero (S := S5000x128) origin0, View.ld_unit_zero (S := S128x128) origin0, View.ld_unit_zero (S := S1x128) origin0]
  funext y
  refine (stored_entry0 V c t y).trans ?_
  show Cert.Sage.layer (V c main_v23) (V c main_arg0) (V c main_arg2) (Cert.Sage.rowOf (V c main_v24)) (V c main_arg4) (ix2 (row0 t (y 0)) (y 1))
    = Cert.Sage.layer (V c main_v23) (V c main_arg0) (V c main_arg2) (Cert.Sage.rowOf (V c main_v24)) (V c main_arg4) (((cfg0.win 5).blk t).view.emb y)
  refine congrArg _ (funext fun a => Fin.ext ?_)
  obtain ⟨-, -, -, -, -, -, -, -, -, -, e0, e1⟩ := block_of_point0 t
  match a with
  | ⟨0, _⟩ => show t.val * 5000 + (y 0).val = win0_5.index t (0 : Fin 2) * 5000 + 1 * (y 0).val; omega
  | ⟨1, _⟩ => show (y 1).val = win0_5.index t (1 : Fin 2) * 128 + 1 * (y 1).val; omega

/-- An entry of the output array lies in point `t`'s block iff each coordinate is in the block's range on its axis. -/
theorem in_block0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every entry of the output array is written back by some point: row `r` by point `r / 5000`. -/
theorem covered0 (i : S50000x128.Idx) :
    ∃ t : Fin cfg0.N, (cfg0.win 5).flush t = true ∧ i ∈ ((cfg0.win 5).blk t).view.set := by
  have h0 : (i 0).val < 50000 := (i 0).isLt
  have h1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  refine ⟨t, flush0_5 t, ?_⟩
  rw [in_block0]
  obtain ⟨-, -, -, -, -, -, -, -, -, -, e0, e1⟩ := block_of_point0 t
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer's value on the five arrays the region found. -/
theorem layer0 (c : Dev nD) :
    (Gen.dat0 (F := Ideal) V c).arrAt 5 cfg0.N
      = Cert.Sage.layer (V c main_v23) (V c main_arg0) (V c main_arg2) (Cert.Sage.rowOf (V c main_v24)) (V c main_arg4) :=
  (dat0 (F := Ideal) V c).arrAt_eq_of_cover 5
    (Cert.Sage.layer (V c main_v23) (V c main_arg0) (V c main_arg2) (Cert.Sage.rowOf (V c main_v24)) (V c main_arg4))
    (fun t _ => written0 V c t) covered0

end Blocks

end Cert.KernelIdeal.RegionValue

end
-- ==== Proof.KernelLayer1.lean ====
/-
  The second combine region, read as a whole-array equation.

  The region walks ten row-blocks of 5000 rows. On each it stores, entry by entry, the maximum with zero of
  (neighbour averages · left weights) + bias + (features · right weights), every product a sum over the 128 contracted
  coordinates. Block `t` of the output is therefore block `t` of the layer's value on the whole arrays, and the ten
  blocks tile the 50000 rows, so the output array ends holding the layer's value. Nothing is assumed of the arrays
  the region finds: the equation holds for any contents.
-/
import proofs.«165760_j91216515432812_1_alg».proof.Proof.Gen.KernelIdeal.Frame
import proofs.«165760_j91216515432812_1_alg».proof.Proof.Spec
import proofs.«165760_j91216515432812_1_alg».proof.Proof.BiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## A block product at an entry

The product of a 5000 × 128 block with a 128 × 128 matrix contracts the block's second axis against the matrix's
first. The four facts below say which coordinate of each factor an output entry `(i 0, i 1)` and a contracted
position read. -/

/-- The left factor's row is the output's row. -/
theorem prod1_left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left factor's column is the contracted position. -/
theorem prod1_left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right factor's row is the contracted position. -/
theorem prod1_right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right factor's column is the output's column. -/
theorem prod1_right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Accumulated into zero, entry `(p, q)` of the product is the sum over the 128 contracted positions of the
    products of row `p` of the block with column `q` of the matrix. -/
theorem prod1_at {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact prod1_left_row _ _
    | ⟨1, _⟩ => exact (prod1_left_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (prod1_right_row _ _).trans hk
    | ⟨1, _⟩ => exact prod1_right_col _ _)
  rw [el, er]

/-! ## The body's value at an entry -/

/-- Entry `(p, q)` of what the body stores: the maximum with zero of (neighbour block · left weights) + bias + (feature
    block · right weights), the two narrowings to the short format being the identity on extended reals. -/
theorem body1_at (agg x : Vec Ideal S5000x128 .f32) (wl wr : Vec Ideal S128x128 .f32) (b : Vec Ideal S1x128 .f32)
    (p : Fin 5000) (q : Fin 128) :
    k1_pay1 (F := Ideal) agg x wl wr b (ix2 p q)
      = max ((∑ k : Fin 128, agg (ix2 p k) * wl (ix2 k q)) + b (ix2 (0 : Fin 1) q) + ∑ k : Fin 128, x (ix2 p k) * wr (ix2 k q))
          (Ideal.ofBits .f32 0x00000000#32) := by
  unfold k1_pay1
  rw [maximumf_apply, addf_apply, addf_apply, broadcast_apply, prod1_at, prod1_at, shapeCast_self, shapeCast_self, shapeCast_self]
  rw [show broadcastTo S5000x128 b broadcasts_S1x128_S5000x128 (ix2 p q) = b (ix2 (0 : Fin 1) q) from
    broadcastTo_1b_ab_apply b broadcasts_S1x128_S5000x128 p q]
  rfl

/-! ## From blocks to the array

The grid has ten points. Point `t` works on rows `t · 5000 … t · 5000 + 4999` of the two node arrays and of the
output; the two weight matrices and the bias row are read whole at every point. -/

section Blocks

variable (V : (c : Dev nD) → (b : Ref sig .tc) → Buf (Elt Ideal) ((c : Thread nD τ).loc b))

/-- The two zero offsets, as the constant function. -/
theorem origin1 : (![0, 0] : Fin 2 → Nat) = fun _ => 0 := funext fun a => by fin_cases a <;> rfl

/-- The block each window is on at each of the ten points: the three row-blocked windows on block `(t, 0)`, the three
    whole ones on block `(0, 0)`. -/
theorem block_of_point1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block, as a row of the 50000-row arrays. -/
def row1 (t : Fin cfg1.N) (p : Fin 5000) : Fin 50000 :=
  ⟨t.val * 5000 + p.val, by have ht : t.val < 10 := lt_of_lt_of_eq t.isLt N_1; have hp := p.isLt; omega⟩

/-- The neighbour-average block at point `t` is rows `t · 5000 + p` of its array. -/
theorem agg_block1 (c : Dev nD) (t : Fin cfg1.N) (p : Fin 5000) (k : Fin 128) :
    (iblk1 V c 0 t : S5000x128.Idx → EReal) (ix2 p k) = (V c main_v37 : S50000x128.Idx → EReal) (ix2 (row1 t p) k) := by
  show (V c main_v37 : S50000x128.Idx → EReal) (((cfg1.win 0).blk t).view.emb (ix2 p k)) = _
  refine congrArg _ (funext fun a => Fin.ext ?_)
  obtain ⟨e0, e1, -⟩ := block_of_point1 t
  match a with
  | ⟨0, _⟩ => show win1_0.index t (0 : Fin 2) * 5000 + 1 * p.val = t.val * 5000 + p.val; omega
  | ⟨1, _⟩ => show win1_0.index t (1 : Fin 2) * 128 + 1 * k.val = k.val; omega

/-- The feature block at point `t` is rows `t · 5000 + p` of its array. -/
theorem feat_block1 (c : Dev nD) (t : Fin cfg1.N) (p : Fin 5000) (k : Fin 128) :
    (iblk1 V c 1 t : S5000x128.Idx → EReal) (ix2 p k) = (V c main_v25 : S50000x128.Idx → EReal) (ix2 (row1 t p) k) := by
  show (V c main_v25 : S50000x128.Idx → EReal) (((cfg1.win 1).blk t).view.emb (ix2 p k)) = _
  refine congrArg _ (funext fun a => Fin.ext ?_)
  obtain ⟨-, -, e0, e1, -⟩ := block_of_point1 t
  match a with
  | ⟨0, _⟩ => show win1_1.index t (0 : Fin 2) * 5000 + 1 * p.val = t.val * 5000 + p.val; omega
  | ⟨1, _⟩ => show win1_1.index t (1 : Fin 2) * 128 + 1 * k.val = k.val; omega

/-- The left weights' block is the whole matrix at every point. -/
theorem wl_block1 (c : Dev nD) (t : Fin cfg1.N) (k q : Fin 128) :
    (iblk1 V c 2 t : S128x128.Idx → EReal) (ix2 k q) = (V c main_arg5 : S128x128.Idx → EReal) (ix2 k q) := by
  show (V c main_arg5 : S128x128.Idx → EReal) (((cfg1.win 2).blk t).view.emb (ix2 k q)) = _
  refine congrArg _ (funext fun a => Fin.ext ?_)
  obtain ⟨-, -, -, -, e0, e1, -⟩ := block_of_point1 t
  match a with
  | ⟨0, _⟩ => show win1_2.index t (0 : Fin 2) * 128 + 1 * k.val = k.val; omega
  | ⟨1, _⟩ => show win1_2.index t (1 : Fin 2) * 128 + 1 * q.val = q.val; omega

/-- The bias row's block is the whole row at every point. -/
theorem bias_block1 (c : Dev nD) (t : Fin cfg1.N) (q : Fin 128) :
    (iblk1 V c 3 t : S1x128.Idx → EReal) (ix2 (0 : Fin 1) q) = (V c main_v38 : S1x128.Idx → EReal) (ix2 (0 : Fin 1) q) := by
  show (V c main_v38 : S1x128.Idx → EReal) (((cfg1.win 3).blk t).view.emb (ix2 (0 : Fin 1) q)) = _
  refine congrArg _ (funext fun a => Fin.ext ?_)
  obtain ⟨-, -, -, -, -, -, e0, e1, -⟩ := block_of_point1 t
  match a with
  | ⟨0, _⟩ => show win1_3.index t (0 : Fin 2) * 1 + 1 * 0 = 0; omega
  | ⟨1, _⟩ => show win1_3.index t (1 : Fin 2) * 128 + 1 * q.val = q.val; omega

/-- The right weights' block is the whole matrix at every point. -/
theorem wr_block1 (c : Dev nD) (t : Fin cfg1.N) (k q : Fin 128) :
    (iblk1 V c 4 t : S128x128.Idx → EReal) (ix2 k q) = (V c main_arg7 : S128x128.Idx → EReal) (ix2 k q) := by
  show (V c main_arg7 : S128x128.Idx → EReal) (((cfg1.win 4).blk t).view.emb (ix2 k q)) = _
  refine congrArg _ (funext fun a => Fin.ext ?_)
  obtain ⟨-, -, -, -, -, -, -, -, e0, e1, -⟩ := block_of_point1 t
  match a with
  | ⟨0, _⟩ => show win1_4.index t (0 : Fin 2) * 128 + 1 * k.val = k.val; omega
  | ⟨1, _⟩ => show win1_4.index t (1 : Fin 2) * 128 + 1 * q.val = q.val; omega

/-- What the body stores at entry `y` of point `t`'s block is the layer's value at row `t · 5000 + y 0`, column `y 1`. -/
theorem stored_entry1 (c : Dev nD) (t : Fin cfg1.N) (y : S5000x128.Idx) :
    k1_pay1 (F := Ideal) (iblk1 V c 0 t) (iblk1 V c 1 t) (iblk1 V c 2 t) (iblk1 V c 4 t) (iblk1 V c 3 t) y
      = Cert.Sage.layer (V c main_v37) (V c main_v25) (V c main_arg5) (Cert.Sage.rowOf (V c main_v38)) (V c main_arg7)
          (ix2 (row1 t (y 0)) (y 1)) := by
  obtain ⟨p, q, rfl⟩ : ∃ (p : Fin 5000) (q : Fin 128), y = ix2 p q := ⟨y 0, y 1, eq_ix2 y⟩
  refine (body1_at (iblk1 V c 0 t) (iblk1 V c 1 t) (iblk1 V c 2 t) (iblk1 V c 4 t) (iblk1 V c 3 t) p q).trans ?_
  simp only [agg_block1 V c t, feat_block1 V c t, wl_block1 V c t, bias_block1 V c t, wr_block1 V c t]
  rfl

/-- What point `t` writes back is block `t` of the layer's value on the arrays as the region finds them. -/
theorem written1 (c : Dev nD) (t : Fin cfg1.N) :
    (dat1 (F := Ideal) V c).flushed 5 t
      = ((cfg1.win 5).blk t).view.read (Elt Ideal)
          (Cert.Sage.layer (V c main_v37) (V c main_v25) (V c main_arg5) (Cert.Sage.rowOf (V c main_v38)) (V c main_arg7)) := by
  show (cfg1.win 5).cut (grid1.coords t) ((dat1 V c).after 5 t) = _
  rw [after1_5]
  unfold out1_5
  rw [View.canon_unit_zero origin1]
  simp only [View.ld_unit_zero (S := S5000x128) origin1, View.ld_unit_zero (S := S128x128) origin1, View.ld_unit_zero (S := S1x128) origin1]
  funext y
  refine (stored_entry1 V c t y).trans ?_
  show Cert.Sage.layer (V c main_v37) (V c main_v25) (V c main_arg5) (Cert.Sage.rowOf (V c main_v38)) (V c main_arg7) (ix2 (row1 t (y 0)) (y 1))
    = Cert.Sage.layer (V c main_v37) (V c main_v25) (V c main_arg5) (Cert.Sage.rowOf (V c main_v38)) (V c main_arg7) (((cfg1.win 5).blk t).view.emb y)
  refine congrArg _ (funext fun a => Fin.ext ?_)
  obtain ⟨-, -, -, -, -, -, -, -, -, -, e0, e1⟩ := block_of_point1 t
  match a with
  | ⟨0, _⟩ => show t.val * 5000 + (y 0).val = win1_5.index t (0 : Fin 2) * 5000 + 1 * (y 0).val; omega
  | ⟨1, _⟩ => show (y 1).val = win1_5.index t (1 : Fin 2) * 128 + 1 * (y 1).val; omega

/-- An entry of the output array lies in point `t`'s block iff each coordinate is in the block's range on its axis. -/
theorem in_block1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every entry of the output array is written back by some point: row `r` by point `r / 5000`. -/
theorem covered1 (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  refine ⟨t, flush1_5 t, ?_⟩
  rw [in_block1]
  obtain ⟨-, -, -, -, -, -, -, -, -, -, e0, e1⟩ := block_of_point1 t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer's value on the five arrays the region found. -/
theorem layer1 (c : Dev nD) :
    (Gen.dat1 (F := Ideal) V c).arrAt 5 cfg1.N
      = Cert.Sage.layer (V c main_v37) (V c main_v25) (V c main_arg5) (Cert.Sage.rowOf (V c main_v38)) (V c main_arg7) :=
  (dat1 (F := Ideal) V c).arrAt_eq_of_cover 5
    (Cert.Sage.layer (V c main_v37) (V c main_v25) (V c main_arg5) (Cert.Sage.rowOf (V c main_v38)) (V c main_arg7))
    (fun t _ => written1 V c t) covered1

end Blocks

end Cert.KernelIdeal.RegionValue

end
-- ==== Proof.KernelLayer2.lean ====
/-
  The third combine region, read as a whole-array equation.

  The region walks ten row-blocks of 5000 rows. On each it stores, entry by entry, the maximum with zero of
  (neighbour averages · left weights) + bias + (features · right weights), every product a sum over the 128 contracted
  coordinates. Block `t` of the output is therefore block `t` of the layer's value on the whole arrays, and the ten
  blocks tile the 50000 rows, so the output array ends holding the layer's value. Nothing is assumed of the arrays
  the region finds: the equation holds for any contents.
-/
import proofs.«165760_j91216515432812_1_alg».proof.Proof.Gen.KernelIdeal.Frame
import proofs.«165760_j91216515432812_1_alg».proof.Proof.Spec
import proofs.«165760_j91216515432812_1_alg».proof.Proof.BiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## A block product at an entry

The product of a 5000 × 128 block with a 128 × 128 matrix contracts the block's second axis against the matrix's
first. The four facts below say which coordinate of each factor an output entry `(i 0, i 1)` and a contracted
position read. -/

/-- The left factor's row is the output's row. -/
theorem prod2_left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left factor's column is the contracted position. -/
theorem prod2_left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right factor's row is the contracted position. -/
theorem prod2_right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right factor's column is the output's column. -/
theorem prod2_right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Accumulated into zero, entry `(p, q)` of the product is the sum over the 128 contracted positions of the
    products of row `p` of the block with column `q` of the matrix. -/
theorem prod2_at {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact prod2_left_row _ _
    | ⟨1, _⟩ => exact (prod2_left_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (prod2_right_row _ _).trans hk
    | ⟨1, _⟩ => exact prod2_right_col _ _)
  rw [el, er]

/-! ## The body's value at an entry -/

/-- Entry `(p, q)` of what the body stores: the maximum with zero of (neighbour block · left weights) + bias + (feature
    block · right weights), the two narrowings to the short format being the identity on extended reals. -/
theorem body2_at (agg x : Vec Ideal S5000x128 .f32) (wl wr : Vec Ideal S128x128 .f32) (b : Vec Ideal S1x128 .f32)
    (p : Fin 5000) (q : Fin 128) :
    k2_pay1 (F := Ideal) agg x wl wr b (ix2 p q)
      = max ((∑ k : Fin 128, agg (ix2 p k) * wl (ix2 k q)) + b (ix2 (0 : Fin 1) q) + ∑ k : Fin 128, x (ix2 p k) * wr (ix2 k q))
          (Ideal.ofBits .f32 0x00000000#32) := by
  unfold k2_pay1
  rw [maximumf_apply, addf_apply, addf_apply, broadcast_apply, prod2_at, prod2_at, shapeCast_self, shapeCast_self, shapeCast_self]
  rw [show broadcastTo S5000x128 b broadcasts_S1x128_S5000x128 (ix2 p q) = b (ix2 (0 : Fin 1) q) from
    broadcastTo_1b_ab_apply b broadcasts_S1x128_S5000x128 p q]
  rfl

/-! ## From blocks to the array

The grid has ten points. Point `t` works on rows `t · 5000 … t · 5000 + 4999` of the two node arrays and of the
output; the two weight matrices and the bias row are read whole at every point. -/

section Blocks

variable (V : (c : Dev nD) → (b : Ref sig .tc) → Buf (Elt Ideal) ((c : Thread nD τ).loc b))

/-- The two zero offsets, as the constant function. -/
theorem origin2 : (![0, 0] : Fin 2 → Nat) = fun _ => 0 := funext fun a => by fin_cases a <;> rfl

/-- The block each window is on at each of the ten points: the three row-blocked windows on block `(t, 0)`, the three
    whole ones on block `(0, 0)`. -/
theorem block_of_point2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block, as a row of the 50000-row arrays. -/
def row2 (t : Fin cfg2.N) (p : Fin 5000) : Fin 50000 :=
  ⟨t.val * 5000 + p.val, by have ht : t.val < 10 := lt_of_lt_of_eq t.isLt N_2; have hp := p.isLt; omega⟩

/-- The neighbour-average block at point `t` is rows `t · 5000 + p` of its array. -/
theorem agg_block2 (c : Dev nD) (t : Fin cfg2.N) (p : Fin 5000) (k : Fin 128) :
    (iblk2 V c 0 t : S5000x128.Idx → EReal) (ix2 p k) = (V c main_v51 : S50000x128.Idx → EReal) (ix2 (row2 t p) k) := by
  show (V c main_v51 : S50000x128.Idx → EReal) (((cfg2.win 0).blk t).view.emb (ix2 p k)) = _
  refine congrArg _ (funext fun a => Fin.ext ?_)
  obtain ⟨e0, e1, -⟩ := block_of_point2 t
  match a with
  | ⟨0, _⟩ => show win2_0.index t (0 : Fin 2) * 5000 + 1 * p.val = t.val * 5000 + p.val; omega
  | ⟨1, _⟩ => show win2_0.index t (1 : Fin 2) * 128 + 1 * k.val = k.val; omega

/-- The feature block at point `t` is rows `t · 5000 + p` of its array. -/
theorem feat_block2 (c : Dev nD) (t : Fin cfg2.N) (p : Fin 5000) (k : Fin 128) :
    (iblk2 V c 1 t : S5000x128.Idx → EReal) (ix2 p k) = (V c main_v39 : S50000x128.Idx → EReal) (ix2 (row2 t p) k) := by
  show (V c main_v39 : S50000x128.Idx → EReal) (((cfg2.win 1).blk t).view.emb (ix2 p k)) = _
  refine congrArg _ (funext fun a => Fin.ext ?_)
  obtain ⟨-, -, e0, e1, -⟩ := block_of_point2 t
  match a with
  | ⟨0, _⟩ => show win2_1.index t (0 : Fin 2) * 5000 + 1 * p.val = t.val * 5000 + p.val; omega
  | ⟨1, _⟩ => show win2_1.index t (1 : Fin 2) * 128 + 1 * k.val = k.val; omega

/-- The left weights' block is the whole matrix at every point. -/
theorem wl_block2 (c : Dev nD) (t : Fin cfg2.N) (k q : Fin 128) :
    (iblk2 V c 2 t : S128x128.Idx → EReal) (ix2 k q) = (V c main_arg8 : S128x128.Idx → EReal) (ix2 k q) := by
  show (V c main_arg8 : S128x128.Idx → EReal) (((cfg2.win 2).blk t).view.emb (ix2 k q)) = _
  refine congrArg _ (funext fun a => Fin.ext ?_)
  obtain ⟨-, -, -, -, e0, e1, -⟩ := block_of_point2 t
  match a with
  | ⟨0, _⟩ => show win2_2.index t (0 : Fin 2) * 128 + 1 * k.val = k.val; omega
  | ⟨1, _⟩ => show win2_2.index t (1 : Fin 2) * 128 + 1 * q.val = q.val; omega

/-- The bias row's block is the whole row at every point. -/
theorem bias_block2 (c : Dev nD) (t : Fin cfg2.N) (q : Fin 128) :
    (iblk2 V c 3 t : S1x128.Idx → EReal) (ix2 (0 : Fin 1) q) = (V c main_v52 : S1x128.Idx → EReal) (ix2 (0 : Fin 1) q) := by
  show (V c main_v52 : S1x128.Idx → EReal) (((cfg2.win 3).blk t).view.emb (ix2 (0 : Fin 1) q)) = _
  refine congrArg _ (funext fun a => Fin.ext ?_)
  obtain ⟨-, -, -, -, -, -, e0, e1, -⟩ := block_of_point2 t
  match a with
  | ⟨0, _⟩ => show win2_3.index t (0 : Fin 2) * 1 + 1 * 0 = 0; omega
  | ⟨1, _⟩ => show win2_3.index t (1 : Fin 2) * 128 + 1 * q.val = q.val; omega

/-- The right weights' block is the whole matrix at every point. -/
theorem wr_block2 (c : Dev nD) (t : Fin cfg2.N) (k q : Fin 128) :
    (iblk2 V c 4 t : S128x128.Idx → EReal) (ix2 k q) = (V c main_arg10 : S128x128.Idx → EReal) (ix2 k q) := by
  show (V c main_arg10 : S128x128.Idx → EReal) (((cfg2.win 4).blk t).view.emb (ix2 k q)) = _
  refine congrArg _ (funext fun a => Fin.ext ?_)
  obtain ⟨-, -, -, -, -, -, -, -, e0, e1, -⟩ := block_of_point2 t
  match a with
  | ⟨0, _⟩ => show win2_4.index t (0 : Fin 2) * 128 + 1 * k.val = k.val; omega
  | ⟨1, _⟩ => show win2_4.index t (1 : Fin 2) * 128 + 1 * q.val = q.val; omega

/-- What the body stores at entry `y` of point `t`'s block is the layer's value at row `t · 5000 + y 0`, column `y 1`. -/
theorem stored_entry2 (c : Dev nD) (t : Fin cfg2.N) (y : S5000x128.Idx) :
    k2_pay1 (F := Ideal) (iblk2 V c 0 t) (iblk2 V c 1 t) (iblk2 V c 2 t) (iblk2 V c 4 t) (iblk2 V c 3 t) y
      = Cert.Sage.layer (V c main_v51) (V c main_v39) (V c main_arg8) (Cert.Sage.rowOf (V c main_v52)) (V c main_arg10)
          (ix2 (row2 t (y 0)) (y 1)) := by
  obtain ⟨p, q, rfl⟩ : ∃ (p : Fin 5000) (q : Fin 128), y = ix2 p q := ⟨y 0, y 1, eq_ix2 y⟩
  refine (body2_at (iblk2 V c 0 t) (iblk2 V c 1 t) (iblk2 V c 2 t) (iblk2 V c 4 t) (iblk2 V c 3 t) p q).trans ?_
  simp only [agg_block2 V c t, feat_block2 V c t, wl_block2 V c t, bias_block2 V c t, wr_block2 V c t]
  rfl

/-- What point `t` writes back is block `t` of the layer's value on the arrays as the region finds them. -/
theorem written2 (c : Dev nD) (t : Fin cfg2.N) :
    (dat2 (F := Ideal) V c).flushed 5 t
      = ((cfg2.win 5).blk t).view.read (Elt Ideal)
          (Cert.Sage.layer (V c main_v51) (V c main_v39) (V c main_arg8) (Cert.Sage.rowOf (V c main_v52)) (V c main_arg10)) := by
  show (cfg2.win 5).cut (grid2.coords t) ((dat2 V c).after 5 t) = _
  rw [after2_5]
  unfold out2_5
  rw [View.canon_unit_zero origin2]
  simp only [View.ld_unit_zero (S := S5000x128) origin2, View.ld_unit_zero (S := S128x128) origin2, View.ld_unit_zero (S := S1x128) origin2]
  funext y
  refine (stored_entry2 V c t y).trans ?_
  show Cert.Sage.layer (V c main_v51) (V c main_v39) (V c main_arg8) (Cert.Sage.rowOf (V c main_v52)) (V c main_arg10) (ix2 (row2 t (y 0)) (y 1))
    = Cert.Sage.layer (V c main_v51) (V c main_v39) (V c main_arg8) (Cert.Sage.rowOf (V c main_v52)) (V c main_arg10) (((cfg2.win 5).blk t).view.emb y)
  refine congrArg _ (funext fun a => Fin.ext ?_)
  obtain ⟨-, -, -, -, -, -, -, -, -, -, e0, e1⟩ := block_of_point2 t
  match a with
  | ⟨0, _⟩ => show t.val * 5000 + (y 0).val = win2_5.index t (0 : Fin 2) * 5000 + 1 * (y 0).val; omega
  | ⟨1, _⟩ => show (y 1).val = win2_5.index t (1 : Fin 2) * 128 + 1 * (y 1).val; omega

/-- An entry of the output array lies in point `t`'s block iff each coordinate is in the block's range on its axis. -/
theorem in_block2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v53).slice (win2_5.rect t)).set ↔ _
  rw [View.set_slice_whole, Rect.mem_set_unit]
  exact Iff.rfl

/-- Every entry of the output array is written back by some point: row `r` by point `r / 5000`. -/
theorem covered2 (i : S50000x128.Idx) :
    ∃ t : Fin cfg2.N, (cfg2.win 5).flush t = true ∧ i ∈ ((cfg2.win 5).blk t).view.set := by
  have h0 : (i 0).val < 50000 := (i 0).isLt
  have h1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  refine ⟨t, flush2_5 t, ?_⟩
  rw [in_block2]
  obtain ⟨-, -, -, -, -, -, -, -, -, -, e0, e1⟩ := block_of_point2 t
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the region: the layer's value on the five arrays the region found. -/
theorem layer2 (c : Dev nD) :
    (Gen.dat2 (F := Ideal) V c).arrAt 5 cfg2.N
      = Cert.Sage.layer (V c main_v51) (V c main_v39) (V c main_arg8) (Cert.Sage.rowOf (V c main_v52)) (V c main_arg10) :=
  (dat2 (F := Ideal) V c).arrAt_eq_of_cover 5
    (Cert.Sage.layer (V c main_v51) (V c main_v39) (V c main_arg8) (Cert.Sage.rowOf (V c main_v52)) (V c main_arg10))
    (fun t _ => written2 V c t) covered2

end Blocks

end Cert.KernelIdeal.RegionValue

end
-- ==== Proof.KernelHeadPayload.lean ====
/-
  The classifier on one block of 5000 rows, entry by entry.

  The body takes a block `h` of 5000 feature rows, the two weight matrices and the two biases (each bias a one-row
  matrix) and stores the row-wise log-softmax of `max (h · W1 + b1) 0 · W2 + b2`. Read at row `p` and column `q`:
  the hidden entry `(p, k)` is `max (∑ j, h (p, j) * W1 (j, k) + b1 (0, k)) 0`, the score `(p, q)` is
  `∑ k, hidden (p, k) * W2 (k, q) + b2 (0, q)`, and the stored value is the log-softmax of row `p`'s 40 scores at `q`.
  Changing the float format is the identity on the extended reals, a product into a zero accumulator is the plain sum
  over the 128 contracted coordinates, a one-row matrix spread over the rows reads its row, and a row reduction kept as
  a one-column matrix and spread back over the columns reads the reduced row.
-/
import proofs.«165760_j91216515432812_1_alg».proof.Proof.Gen.KernelIdeal.Skeleton
import proofs.«165760_j91216515432812_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx

/-! ## A vector kept as a one-column matrix, and a column spread over a row -/

/-- An `[a]` array recast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row-wise log-softmax of a block -/

/-- Each row's maximum, joined once more with the word for -∞. -/
def rowMaxVec (z : FVec Ideal S5000x40 .f32) : FVec Ideal S5000 .f32 :=
  maximumf (broadcast S5000 (Scalar.ofBits (F := Ideal) .f32 0xFF800000#32))
    (multiReduction (F := Ideal) .maximumf [1] S5000 z 0xFF800000#32 reduces_S5000x40_S5000 (.inl rfl) rfl)

theorem rowMaxVec_apply (z : FVec Ideal S5000x40 .f32) (p : Fin 5000) :
    rowMaxVec z (ix1 p) = Cert.Sage.rowMax (fun k : Fin 40 => z (ix2 p k)) := by
  unfold rowMaxVec Cert.Sage.rowMax
  rw [maximumf_apply, broadcast_apply]
  refine congrArg (max _) ?_
  refine (Ideal.multiReduction_maximumf_single z _ reduces_S5000x40_S5000 (.inl rfl) rfl (ix1 p)).trans ?_
  have e : (z ∘ (reduces_S5000x40_S5000).lift (ix1 p)) = fun k : Fin 40 => z (ix2 p k) :=
    funext fun k => congrArg z (funext fun a => Fin.ext (by match a with | ⟨0, _⟩ => rfl | ⟨1, _⟩ => rfl))
  exact congrArg (fun f => (Finset.univ : Finset (Fin 40)).fold max (Ideal.ofBits .f32 0xFF800000#32) f) e

/-- A block with each row's maximum taken off. -/
def shifted (z : FVec Ideal S5000x40 .f32) : FVec Ideal S5000x40 .f32 :=
  subf z (broadcastTo S5000x40 (shapeCast S5000x1 (rowMaxVec z) shapeCasts_S5000_S5000x1) broadcasts_S5000x1_S5000x40)

theorem shifted_apply (z : FVec Ideal S5000x40 .f32) (p : Fin 5000) (q : Fin 40) :
    shifted z (ix2 p q) = z (ix2 p q) - Cert.Sage.rowMax (fun k : Fin 40 => z (ix2 p k)) := by
  unfold shifted
  rw [subf_apply, broadcastTo_a1_ab_apply, shapeCast_a_a1_apply, rowMaxVec_apply]

/-- Each row's sum of the exponentials of its shifted entries. -/
def expSumVec (z : FVec Ideal S5000x40 .f32) : FVec Ideal S5000 .f32 :=
  multiReduction (F := Ideal) .add [1] S5000 (exp (shifted z)) 0x00000000#32 reduces_S5000x40_S5000 (.inl rfl) rfl

theorem expSumVec_apply (z : FVec Ideal S5000x40 .f32) (p : Fin 5000) :
    expSumVec z (ix1 p) = ∑ k : Fin 40, Ideal.exp (z (ix2 p k) - Cert.Sage.rowMax (fun k : Fin 40 => z (ix2 p k))) := by
  unfold expSumVec
  refine (Ideal.multiReduction_add_single (exp (shifted z)) _ reduces_S5000x40_S5000 (.inl rfl) rfl (ix1 p)).trans ?_
  refine Finset.sum_congr rfl fun k _ => ?_
  have e : (reduces_S5000x40_S5000).lift (ix1 p) k = ix2 p k :=
    funext fun a => Fin.ext (by match a with | ⟨0, _⟩ => rfl | ⟨1, _⟩ => rfl)
  exact (congrArg (fun i => Ideal.exp (shifted z i)) e).trans (congrArg Ideal.exp (shifted_apply z p k))

/-- The block's row-wise log-softmax. -/
def logSoftmaxBlock (z : FVec Ideal S5000x40 .f32) : FVec Ideal S5000x40 .f32 :=
  subf (shifted z) (broadcastTo S5000x40 (log (shapeCast S5000x1 (expSumVec z) shapeCasts_S5000_S5000x1)) broadcasts_S5000x1_S5000x40)

theorem logSoftmaxBlock_apply (z : FVec Ideal S5000x40 .f32) (p : Fin 5000) (q : Fin 40) :
    logSoftmaxBlock z (ix2 p q) = Cert.Sage.logSoftmaxRow (fun k : Fin 40 => z (ix2 p k)) q := by
  unfold logSoftmaxBlock Cert.Sage.logSoftmaxRow
  rw [subf_apply, shifted_apply, broadcastTo_a1_ab_apply]
  show _ - Ideal.log (shapeCast S5000x1 (expSumVec z) shapeCasts_S5000_S5000x1 (ix2 p (0 : Fin 1))) = _
  rw [shapeCast_a_a1_apply, expSumVec_apply]

/-! ## The two products

Each operand index of a product is read axis by axis: the left operand's row is the output's row and its column the
contracted coordinate; the right operand's row is the contracted coordinate and its column the output's column. -/

theorem lhs_hid_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_hid_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_hid_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_hid_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of the first product into a zero accumulator: the sum over the 128 contracted coordinates. -/
theorem hidDot_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_hid_0 _ _).trans hk
    | ⟨1, _⟩ => exact rhs_hid_1 _ _)
  rw [el, er]

theorem lhs_out_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_out_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs_out_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_out_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry `(p, q)` of the second product into a zero accumulator: the sum over the 128 contracted coordinates. -/
theorem outDot_apply (x : FVec Ideal S5000x128 .bf16) (w : FVec Ideal S128x40 .bf16) (p : Fin 5000) (q : Fin 40) :
    matmul dot_S5000x128_S128x40_S5000x40_1_0_0_1_n_n none x w (constant (F := Ideal) S5000x40 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-! ## The block's hidden layer and scores -/

/-- The hidden layer of a block of rows: `max (h · w1 + b1) 0`. -/
def hiddenBlock (h : FVec Ideal S5000x128 .f32) (w1 : FVec Ideal S128x128 .f32) (b1 : FVec Ideal S1x128 .f32) : FVec Ideal S5000x128 .f32 :=
  maximumf
    (addf
      (matmul dot_S5000x128_S128x128_S5000x128_1_0_0_1_n_n none (truncf .bf16 (shapeCast S5000x128 h shapeCasts_S5000x128_S5000x128) bitsLt_bf16_f32) (truncf .bf16 w1 bitsLt_bf16_f32)
        (constant (F := Ideal) S5000x128 .f32 0x00000000#32))
      (broadcastTo S5000x128 (shapeCast S1x128 b1 shapeCasts_S1x128_S1x128) broadcasts_S1x128_S5000x128))
    (broadcast S5000x128 (Scalar.ofBits (F := Ideal) .f32 0x00000000#32))

/-- Entry `(p, k)` of the hidden layer, written out. -/
def hiddenAt (h : FVec Ideal S5000x128 .f32) (w1 : FVec Ideal S128x128 .f32) (b1 : FVec Ideal S1x128 .f32) (p : Fin 5000) (k : Fin 128) : EReal :=
  max ((∑ j : Fin 128, h (ix2 p j) * w1 (ix2 j k)) + b1 (ix2 (0 : Fin 1) k)) (Ideal.ofBits .f32 0x00000000#32)

theorem hiddenBlock_apply (h : FVec Ideal S5000x128 .f32) (w1 : FVec Ideal S128x128 .f32) (b1 : FVec Ideal S1x128 .f32) (p : Fin 5000) (k : Fin 128) :
    hiddenBlock h w1 b1 (ix2 p k) = hiddenAt h w1 b1 p k := by
  unfold hiddenBlock hiddenAt
  rw [maximumf_apply, addf_apply, broadcast_apply, hidDot_apply, broadcastTo_1b_ab_apply, shapeCast_self, shapeCast_self]
  rfl

/-- The scores of a block of rows: `a · w2 + b2` of its hidden layer `a`. -/
def scoreBlock (a : FVec Ideal S5000x128 .f32) (w2 : FVec Ideal S128x40 .f32) (b2 : FVec Ideal S1x40 .f32) : FVec Ideal S5000x40 .f32 :=
  addf
    (matmul dot_S5000x128_S128x40_S5000x40_1_0_0_1_n_n none (truncf .bf16 a bitsLt_bf16_f32) (truncf .bf16 w2 bitsLt_bf16_f32) (constant (F := Ideal) S5000x40 .f32 0x00000000#32))
    (broadcastTo S5000x40 (shapeCast S1x40 b2 shapeCasts_S1x40_S1x40) broadcasts_S1x40_S5000x40)

theorem scoreBlock_apply (a : FVec Ideal S5000x128 .f32) (w2 : FVec Ideal S128x40 .f32) (b2 : FVec Ideal S1x40 .f32) (p : Fin 5000) (q : Fin 40) :
    scoreBlock a w2 b2 (ix2 p q) = (∑ k : Fin 128, a (ix2 p k) * w2 (ix2 k q)) + b2 (ix2 (0 : Fin 1) q) := by
  unfold scoreBlock
  rw [addf_apply, outDot_apply, broadcastTo_1b_ab_apply, shapeCast_self]
  rfl

/-- Score `(p, q)` of a block, written out over the block's loads. -/
def scoreAt (h : FVec Ideal S5000x128 .f32) (w1 : FVec Ideal S128x128 .f32) (b1 : FVec Ideal S1x128 .f32) (w2 : FVec Ideal S128x40 .f32)
    (b2 : FVec Ideal S1x40 .f32) (p : Fin 5000) (q : Fin 40) : EReal :=
  (∑ k : Fin 128, hiddenAt h w1 b1 p k * w2 (ix2 k q)) + b2 (ix2 (0 : Fin 1) q)

/-! ## The stored block -/

/-- The body's stored value is the log-softmax of the scores of the hidden layer. -/
theorem pay_eq (h : FVec Ideal S5000x128 .f32) (w1 : FVec Ideal S128x128 .f32) (b1 : FVec Ideal S1x128 .f32) (w2 : FVec Ideal S128x40 .f32)
    (b2 : FVec Ideal S1x40 .f32) :
    k3_pay1 (F := Ideal) h w1 b1 w2 b2 = logSoftmaxBlock (scoreBlock (hiddenBlock h w1 b1) w2 b2) := rfl

/-- The stored value at row `p`, column `q`: the log-softmax of row `p`'s 40 scores, at `q`. -/
theorem pay_apply (h : FVec Ideal S5000x128 .f32) (w1 : FVec Ideal S128x128 .f32) (b1 : FVec Ideal S1x128 .f32) (w2 : FVec Ideal S128x40 .f32)
    (b2 : FVec Ideal S1x40 .f32) (p : Fin 5000) (q : Fin 40) :
    k3_pay1 (F := Ideal) h w1 b1 w2 b2 (ix2 p q) = Cert.Sage.logSoftmaxRow (fun k : Fin 40 => scoreAt h w1 b1 w2 b2 p k) q := by
  rw [pay_eq, logSoftmaxBlock_apply]
  refine congrArg (fun z => Cert.Sage.logSoftmaxRow z q) (funext fun k => ?_)
  rw [scoreBlock_apply]
  unfold scoreAt
  refine congrArg (· + b2 (ix2 (0 : Fin 1) k)) (Finset.sum_congr rfl fun j _ => ?_)
  rw [hiddenBlock_apply]

end Cert.KernelIdeal.RegionValue

end
-- ==== Proof.KernelHead.lean ====
/-
  From blocks to the array: the classifier region writes the classifier of the arrays it finds.

  The region runs over ten grid points. At point `t` the feature window holds rows `5000 t … 5000 t + 4999` of the
  feature array, the two weight windows and the two bias windows hold their whole arrays, and the body's one store
  fills the output window's block, which is written back to rows `5000 t … 5000 t + 4999` of the score array. Entry
  `(p, q)` of the stored block is the log-softmax of row `p`'s 40 scores at `q`; since row `p` of the block is row
  `5000 t + p` of the feature array, that is the specification's classifier at `(5000 t + p, q)`. Row `r` of the score
  array lies in the block of point `r / 5000`, so the ten blocks cover the array and it ends holding the classifier of
  the five arrays, whatever those arrays are.
-/
import proofs.«165760_j91216515432812_1_alg».proof.Proof.Gen.KernelIdeal.Frame
import proofs.«165760_j91216515432812_1_alg».proof.Proof.Spec
import proofs.«165760_j91216515432812_1_alg».proof.Proof.BiasRow
import proofs.«165760_j91216515432812_1_alg».proof.Proof.KernelHeadPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

/-! ## The region's arrays, and the classifier of them -/

variable (V : (c : Dev nD) → (b : Ref sig .tc) → Buf (Elt Ideal) ((c : Thread nD τ).loc b))

/-- The feature array the region finds. -/
abbrev featArr (c : Dev nD) : S50000x128.Idx → EReal := V c main_v53
/-- The first weight matrix. -/
abbrev w1Arr (c : Dev nD) : S128x128.Idx → EReal := V c main_arg11
/-- The first bias, as a one-row matrix. -/
abbrev b1Arr (c : Dev nD) : S1x128.Idx → EReal := V c main_v54
/-- The second weight matrix. -/
abbrev w2Arr (c : Dev nD) : S128x40.Idx → EReal := V c main_arg13
/-- The second bias, as a one-row matrix. -/
abbrev b2Arr (c : Dev nD) : S1x40.Idx → EReal := V c main_v55

/-- The classifier of the region's five arrays. -/
abbrev headArr (c : Dev nD) : S50000x40.Idx → EReal :=
  Cert.Sage.head (featArr V c) (w1Arr V c) (Cert.Sage.rowOf (b1Arr V c)) (w2Arr V c) (Cert.Sage.rowOf (b2Arr V c))

theorem hz : (![0, 0] : Fin 2 → Nat) = fun _ => 0 := funext fun a => by fin_cases a <;> rfl

/-- Where each window's block sits at grid point `t`: the feature and the output windows at block row `t`, the weights
    and biases whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A score of a block whose rows are rows of the feature array, and whose other loads are the whole arrays, is the
    specification's score of that row. -/
theorem scoreAt_of_rows (H : S50000x128.Idx → EReal) (W1 : S128x128.Idx → EReal) (B1 : S1x128.Idx → EReal) (W2 : S128x40.Idx → EReal)
    (B2 : S1x40.Idx → EReal) (h : FVec Ideal S5000x128 .f32) (w1 : FVec Ideal S128x128 .f32) (b1 : FVec Ideal S1x128 .f32)
    (w2 : FVec Ideal S128x40 .f32) (b2 : FVec Ideal S1x40 .f32) (p : Fin 5000) (r : Fin 50000)
    (hh : ∀ j : Fin 128, h (ix2 p j) = H (ix2 r j)) (hw1 : w1 = W1) (hb1 : b1 = B1) (hw2 : w2 = W2) (hb2 : b2 = B2) (q : Fin 40) :
    scoreAt h w1 b1 w2 b2 p q = Cert.Sage.logit (Cert.Sage.hidden H W1 (Cert.Sage.rowOf B1)) W2 (Cert.Sage.rowOf B2) r q := by
  subst hw1 hb1 hw2 hb2
  unfold scoreAt hiddenAt Cert.Sage.logit Cert.Sage.hidden Cert.Sage.rowDot Cert.Sage.rowOf
  simp only [hh]

/-! ## Each window's block as a piece of its array -/

/-- Row `p` of the feature window's block at point `t` is row `5000 t + p` of the feature array. -/
theorem featBlock_apply (c : Dev nD) (t : Fin cfg3.N) (p : Fin 5000) (j : Fin 128) (r : Fin 50000) (hr : r.val = t.val * 5000 + p.val) :
    (iblk3 V c 0 t : FVec Ideal S5000x128 .f32) (ix2 p j) = featArr V c (ix2 r j) := by
  obtain ⟨e00, e01, -⟩ := idx_facts t
  unfold iblk3
  rw [View.read_apply]
  show V c main_v53 _ = V c main_v53 _
  congr 1
  funext a
  apply Fin.ext
  match a with
  | ⟨0, _⟩ => show win3_0.index t (0 : Fin 2) * 5000 + 1 * p.val = r.val; rw [e00, hr]; omega
  | ⟨1, _⟩ => show win3_0.index t (1 : Fin 2) * 128 + 1 * j.val = j.val; rw [e01]; omega

/-- The first weight window's block is the whole array at every point. -/
theorem w1Block_eq (c : Dev nD) (t : Fin cfg3.N) : (iblk3 V c 1 t : FVec Ideal S128x128 .f32) = w1Arr V c := by
  obtain ⟨-, -, e10, e11, -⟩ := idx_facts t
  funext y
  unfold iblk3
  rw [View.read_apply]
  show V c main_arg11 _ = V c main_arg11 y
  congr 1
  funext a
  apply Fin.ext
  match a with
  | ⟨0, _⟩ => show win3_1.index t (0 : Fin 2) * 128 + 1 * (y 0).val = (y 0).val; rw [e10]; omega
  | ⟨1, _⟩ => show win3_1.index t (1 : Fin 2) * 128 + 1 * (y 1).val = (y 1).val; rw [e11]; omega

/-- The first bias window's block is the whole one-row array at every point. -/
theorem b1Block_eq (c : Dev nD) (t : Fin cfg3.N) : (iblk3 V c 2 t : FVec Ideal S1x128 .f32) = b1Arr V c := by
  obtain ⟨-, -, -, -, e20, e21, -⟩ := idx_facts t
  funext y
  unfold iblk3
  rw [View.read_apply]
  show V c main_v54 _ = V c main_v54 y
  congr 1
  funext a
  apply Fin.ext
  match a with
  | ⟨0, _⟩ => show win3_2.index t (0 : Fin 2) * 1 + 1 * (y 0).val = (y 0).val; rw [e20]; omega
  | ⟨1, _⟩ => show win3_2.index t (1 : Fin 2) * 128 + 1 * (y 1).val = (y 1).val; rw [e21]; omega

/-- The second weight window's block is the whole array at every point. -/
theorem w2Block_eq (c : Dev nD) (t : Fin cfg3.N) : (iblk3 V c 3 t : FVec Ideal S128x40 .f32) = w2Arr V c := by
  obtain ⟨-, -, -, -, -, -, e30, e31, -⟩ := idx_facts t
  funext y
  unfold iblk3
  rw [View.read_apply]
  show V c main_arg13 _ = V c main_arg13 y
  congr 1
  funext a
  apply Fin.ext
  match a with
  | ⟨0, _⟩ => show win3_3.index t (0 : Fin 2) * 128 + 1 * (y 0).val = (y 0).val; rw [e30]; omega
  | ⟨1, _⟩ => show win3_3.index t (1 : Fin 2) * 40 + 1 * (y 1).val = (y 1).val; rw [e31]; omega

/-- The second bias window's block is the whole one-row array at every point. -/
theorem b2Block_eq (c : Dev nD) (t : Fin cfg3.N) : (iblk3 V c 4 t : FVec Ideal S1x40 .f32) = b2Arr V c := by
  obtain ⟨-, -, -, -, -, -, -, -, e40, e41, -⟩ := idx_facts t
  funext y
  unfold iblk3
  rw [View.read_apply]
  show V c main_v55 _ = V c main_v55 y
  congr 1
  funext a
  apply Fin.ext
  match a with
  | ⟨0, _⟩ => show win3_4.index t (0 : Fin 2) * 1 + 1 * (y 0).val = (y 0).val; rw [e40]; omega
  | ⟨1, _⟩ => show win3_4.index t (1 : Fin 2) * 40 + 1 * (y 1).val = (y 1).val; rw [e41]; omega

/-! ## What a point writes back, the cover, and the array after the region -/

/-- What point `t` stores at `y` of its block is the classifier at the array index that block entry lands on. -/
theorem stored_eq (c : Dev nD) (t : Fin cfg3.N) (y : S5000x40.Idx) :
    k3_pay1 (F := Ideal) (iblk3 V c 0 t) (iblk3 V c 1 t) (iblk3 V c 2 t) (iblk3 V c 3 t) (iblk3 V c 4 t) y
      = headArr V c (((cfg3.win 5).blk t).view.emb y) := by
  obtain ⟨p, q, rfl⟩ : ∃ (p : Fin 5000) (q : Fin 40), y = ix2 p q := ⟨y 0, y 1, eq_ix2 y⟩
  obtain ⟨-, -, -, -, -, -, -, -, -, -, e50, e51⟩ := idx_facts t
  have ht : t.val < 10 := by have h1 := t.isLt; have h2 : cfg3.N = 10 := N_3; omega
  have hemb : ((cfg3.win 5).blk t).view.emb (ix2 p q) = (ix2 (⟨t.val * 5000 + p.val, by omega⟩ : Fin 50000) q : S50000x40.Idx) := by
    funext a
    apply Fin.ext
    match a with
    | ⟨0, _⟩ => show win3_5.index t (0 : Fin 2) * 5000 + 1 * p.val = t.val * 5000 + p.val; rw [e50]; omega
    | ⟨1, _⟩ => show win3_5.index t (1 : Fin 2) * 40 + 1 * q.val = q.val; rw [e51]; omega
  rw [hemb]
  refine (pay_apply _ _ _ _ _ p q).trans ?_
  show _ = Cert.Sage.logSoftmaxRow (fun k => Cert.Sage.logit (Cert.Sage.hidden (featArr V c) (w1Arr V c) (Cert.Sage.rowOf (b1Arr V c))) (w2Arr V c)
      (Cert.Sage.rowOf (b2Arr V c)) (⟨t.val * 5000 + p.val, by omega⟩ : Fin 50000) k) q
  refine congrArg (fun z => Cert.Sage.logSoftmaxRow z q) (funext fun k => ?_)
  exact scoreAt_of_rows (featArr V c) (w1Arr V c) (b1Arr V c) (w2Arr V c) (b2Arr V c) (iblk3 V c 0 t) (iblk3 V c 1 t) (iblk3 V c 2 t) (iblk3 V c 3 t) (iblk3 V c 4 t)
    p ⟨t.val * 5000 + p.val, by omega⟩ (fun j => featBlock_apply V c t p j _ rfl) (w1Block_eq V c t) (b1Block_eq V c t) (w2Block_eq V c t) (b2Block_eq V c t) k

/-- What point `t` writes back is block `t` of the classifier of the region's arrays. -/
theorem flushed_eq (c : Dev nD) (t : Fin cfg3.N) :
    (dat3 V c).flushed 5 t = ((cfg3.win 5).blk t).view.read (Elt Ideal) (headArr V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz,
    View.ld_unit_zero (S := S128x40) hz, View.ld_unit_zero (S := S1x40) hz]
  funext y
  exact stored_eq V c t y

/-- An index of the score array is in point `t`'s block iff each coordinate is in the block's range on its axis. -/
theorem mem_blk (t : Fin cfg3.N) (i : S50000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v56).slice (win3_5.rect t)).set ↔ _
  rw [View.set_slice_whole, Rect.mem_set_unit]
  exact Iff.rfl

/-- Row `r` of the score array is written by point `r / 5000`. -/
theorem covered (i : S50000x40.Idx) : ∃ t : Fin cfg3.N, (cfg3.win 5).flush t = true ∧ i ∈ ((cfg3.win 5).blk t).view.set := by
  have hi0 : (i 0).val < 50000 := (i 0).isLt
  have hi1 : (i 1).val < 40 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, e50, e51⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e50, ht]; omega
  | ⟨1, _⟩ => show win3_5.index t (1 : Fin 2) * 40 ≤ (i 1).val ∧ (i 1).val < win3_5.index t (1 : Fin 2) * 40 + 40; rw [e51]; omega

/-- The score array after the region: the classifier of the five arrays the region finds, whatever they are. -/
theorem head3 (c : Dev nD) :
    (dat3 (F := Ideal) V c).arrAt 5 cfg3.N
      = (Cert.Sage.head (V c main_v53) (V c main_arg11) (Cert.Sage.rowOf (V c main_v54)) (V c main_arg13) (Cert.Sage.rowOf (V c main_v55)) : S50000x40.Idx → EReal) :=
  (dat3 V c).arrAt_eq_of_cover 5 (headArr V c) (fun t _ => flushed_eq V c t) covered

end Cert.KernelIdeal.RegionValue

end
-- ==== Proof.Aggregate.lean ====
/-
  The neighbour aggregation that both programs compute on the host, as named functions of the node features and the
  two rows of the edge list.

  With `s` the row of source nodes and `d` the row of destination nodes, `edgeSum h s d` gathers row `s e` of `h` for
  every edge `e` (a negative source index counted from the end) and adds it into row `d e` of a zero array;
  `clipDeg d` is the in-degree of every node (ones added over the same destinations) joined with one.
  One program multiplies the edge sum by the reciprocal of the clipped degree (`aggMul`, the reciprocal column
  `invCol d` computed once), the other divides by the clipped degree (`aggDiv`). The clipped degree is a maximum with
  one, hence never zero, and off zero a product with the reciprocal is the quotient on every extended real: the two
  are one function, whatever the gather and the scatter-add return.
-/
import proofs.«165760_j91216515432812_1_alg».proof.Proof.Gen.KernelIdeal
import proofs.«165760_j91216515432812_1_alg».proof.Proof.Spec
import Idealize.ShloMosaic.Lib.Pipeline.Value
import Idealize.ShloMosaic.Lib.ValueIdx

noncomputable section

namespace Cert.KernelIdeal.Agg

open Cert.KernelIdeal Cert.KernelIdeal.Gen Idealize.ShloMosaic Idealize.ShloMosaic.TcCoe Idealize.ShloMosaic.ValueIdx

variable {F : FTy → Type} [FloatOps F]

/-- The row of source nodes: row 0 of the edge list. -/
def srcRow (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The row of destination nodes: row 1 of the edge list. -/
def dstRow (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The gather's index column: a negative source index has the node count added. -/
def srcCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- Row `d e` of the result collects row `s e` of `h`, over every edge `e`. -/
def edgeSum (h : (⟨S50000x128, .f32⟩ : BufTy).Contents (Elt F)) (s d : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 h (srcCol s))

/-- Every node's in-degree, joined with one. -/
def clipDeg (d : (⟨S600000, .i32⟩ : BufTy).Contents (Elt F)) : (⟨S50000, .f32⟩ : BufTy).Contents (Elt F) :=
  maximumf (broadcastInDim S50000 ![] bcast_S_S50000 (id (constant S_ .f32 0x3F800000#32)))
    (Host.scatterAdd scatter_S50000_S600000x1_S600000_n_0_0_1
      (broadcastInDim S50000 ![] bcast_S_S50000 (constant S_ .f32 0x00000000#32))
      (broadcastInDim S600000x1 ![0] bcast_S600000_S600000x1_0 d)
      (broadcastInDim S600000 ![] bcast_S_S600000 (constant S_ .f32 0x3F800000#32)))

/-- The reciprocal of the clipped degree, as a column. -/
def invCol (d : (⟨S600000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32)) (clipDeg d))

/-- The edge sum times a column spread over the 128 features. -/
def aggMul (h : (⟨S50000x128, .f32⟩ : BufTy).Contents (Elt F)) (s d : (⟨S600000, .i32⟩ : BufTy).Contents (Elt F))
    (inv : (⟨S50000x1, .f32⟩ : BufTy).Contents (Elt F)) : (⟨S50000x128, .f32⟩ : BufTy).Contents (Elt F) :=
  mulf (edgeSum h s d) (broadcastInDim S50000x128 ![0, 1] bcast_S50000x1_S50000x128_0_1 inv)

/-- The edge sum divided by the clipped degree, spread as a column over the 128 features. -/
def aggDiv (h : (⟨S50000x128, .f32⟩ : BufTy).Contents (Elt F)) (s d : (⟨S600000, .i32⟩ : BufTy).Contents (Elt F)) :
    (⟨S50000x128, .f32⟩ : BufTy).Contents (Elt F) :=
  Host.divf (edgeSum h s d)
    (broadcastInDim S50000x128 ![0, 1] bcast_S50000x1_S50000x128_0_1
      (broadcastInDim S50000x1 ![0] bcast_S50000_S50000x1_0 (clipDeg d)))

/-! ## The two are one function on the extended reals -/

/-- The host's quotient read at an index is the quotient of the entries. -/
theorem hostDiv_apply {s : Shape} (a b : FVec Ideal s .f32) (i : s.Idx) : Host.divf a b i = Ideal.div (a i) (b i) := rfl

/-- A column `y` of 50000 entries spread over 128 features, read at `i`, is `y` at row `i 0`. -/
theorem spread_apply (y : FVec Ideal S50000 .f32) (i : S50000x128.Idx) :
    broadcastInDim S50000x128 ![0, 1] bcast_S50000x1_S50000x128_0_1
      (broadcastInDim S50000x1 ![0] bcast_S50000_S50000x1_0 y) i = y (ix1 (i 0)) := by
  have e1 := broadcastInDim_apply ![0, 1] bcast_S50000x1_S50000x128_0_1
    (broadcastInDim S50000x1 ![0] bcast_S50000_S50000x1_0 y) i (ix2 (i 0) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  have e2 := broadcastInDim_apply ![0] bcast_S50000_S50000x1_0 y (ix2 (i 0) (0 : Fin 1)) (ix1 (i 0)) (fun a => match a with
      | ⟨0, _⟩ => by show (i 0).val = if (50000 : Nat) = 1 then 0 else (i 0).val; rw [if_neg (by decide)])
  exact e1.trans e2

/-- The constant row of ones at a node is the word that denotes one. -/
theorem ones_apply (r : S50000.Idx) :
    (broadcastInDim S50000 ![] bcast_S_S50000 (constant (F := Ideal) S_ .f32 0x3F800000#32) : FVec Ideal S50000 .f32) r
      = Ideal.ofBits .f32 0x3F800000#32 :=
  broadcastInDim_apply ![] bcast_S_S50000 _ r ix0 (fun a => a.elim0)

/-- The clipped degree at a node is a maximum with one, so it is not zero. -/
theorem clipDeg_ne_zero (d : (⟨S600000, .i32⟩ : BufTy).Contents (Elt Ideal)) (r : S50000.Idx) :
    clipDeg (F := Ideal) d r ≠ 0 := by
  unfold clipDeg
  rw [maximumf_apply]
  have e : (broadcastInDim S50000 ![] bcast_S_S50000 (id (constant (F := Ideal) S_ .f32 0x3F800000#32)) : FVec Ideal S50000 .f32) r
      = Ideal.ofBits .f32 0x3F800000#32 :=
    broadcastInDim_apply ![] bcast_S_S50000 _ r ix0 (fun a => a.elim0)
  rw [e]
  exact Cert.Sage.max_one_ne_zero _

/-- Multiplying the edge sum by the reciprocal column is dividing it by the clipped degree: the clipped degree is a
    maximum with one, so it is not zero, and off zero the product with the reciprocal is the quotient. -/
theorem aggMul_eq_aggDiv (h : (⟨S50000x128, .f32⟩ : BufTy).Contents (Elt Ideal)) (s d : (⟨S600000, .i32⟩ : BufTy).Contents (Elt Ideal)) :
    aggMul (F := Ideal) h s d (invCol d) = aggDiv h s d := by
  funext i
  unfold aggMul aggDiv invCol
  generalize edgeSum (F := Ideal) h s d = S
  rw [mulf_apply, hostDiv_apply, spread_apply, spread_apply, hostDiv_apply, ones_apply]
  exact Cert.Sage.mul_recip_eq_div _ _ (clipDeg_ne_zero d _)

end Cert.KernelIdeal.Agg

end
-- ==== Proof.KernelStretches.lean ====
/-
  What each kernel region finds in the arrays of its input windows.

  Between the kernel regions the program runs short lists of host operations. A buffer that no operation of a list
  writes holds after the list what it held before; a buffer that a list computes holds that list's functions applied to
  what the list read. Walking the lists in order from the launch gives, at each region's entry: the two rows of the edge
  list and the reciprocal of the clipped in-degree (computed once, before the first region, and never written again),
  the neighbour average of the current node features (the launch features for the first region, the previous region's
  result for the second and third), the weights as launched, and each bias as launched with a leading axis of extent one.
-/
import proofs.«165760_j91216515432812_1_alg».proof.Proof.Gen.KernelIdeal.Frame
import proofs.«165760_j91216515432812_1_alg».proof.Proof.Aggregate
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

/-! ## The buffers each list writes, and what a list therefore keeps -/

/-- The buffers the list before the in-degree's clipping writes. -/
abbrev wr0 : List (Ref sig .tc) :=
  [main_v0, main_v1, main_v2, main_v3, main_cst, main_v4, main_cst_0, main_v5, main_v6, main_v7, main_cst_1]
/-- The buffers the clipping writes. -/
abbrev wr0_1 : List (Ref sig .tc) := [main_call0_v0, main_call0_v1, main_v8]
/-- The buffers the rest of the first stretch writes. -/
abbrev wr0_2 : List (Ref sig .tc) :=
  [main_cst_2, main_v9, main_v10, main_v11, main_c, main_v12, main_v13, main_c_3, main_v14, main_v15, main_v16, main_v17,
   main_v18, main_cst_4, main_v19, main_v20, main_v21, main_v22, main_v23, main_v24]
/-- The buffers the stretch between the first and the second region writes. -/
abbrev wr1 : List (Ref sig .tc) :=
  [main_c_5, main_v26, main_v27, main_c_6, main_v28, main_v29, main_v30, main_v31, main_v32, main_cst_7, main_v33, main_v34,
   main_v35, main_v36, main_v37, main_v38]
/-- The buffers the stretch between the second and the third region writes. -/
abbrev wr2 : List (Ref sig .tc) :=
  [main_c_8, main_v40, main_v41, main_c_9, main_v42, main_v43, main_v44, main_v45, main_v46, main_cst_10, main_v47, main_v48,
   main_v49, main_v50, main_v51, main_v52]
/-- The buffers the stretch before the last region writes. -/
abbrev wr3 : List (Ref sig .tc) := [main_v54, main_v55]

/-- Every operation of a literal list writes one buffer, and that buffer is on the given list of references. -/
local macro "writes_listed " ops:ident : tactic =>
  `(tactic| (simp only [$ops:ident, List.Forall, StableHlo.nullary_writes, StableHlo.unary_writes, StableHlo.binary_writes,
               StableHlo.ternary_writes, StableHlo.reshape_writes, Finset.singleton_subset_iff, List.mem_toFinset]
             repeat' apply And.intro
             all_goals exact List.mem_map_of_mem (by decide)))

section Keep

variable (V : Valuation τ sig (Elt Ideal)) {r : Ref sig .tc}

theorem keep0 (h : r ∉ wr0) : StableHlo.after hostOps0 V (Proc.devRef .tc r) = V (Proc.devRef .tc r) :=
  StableHlo.after_of_writes_sub hostOps0 V (by writes_listed hostOps0) h
theorem keep0_1 (h : r ∉ wr0_1) : StableHlo.after hostOps0_1 V (Proc.devRef .tc r) = V (Proc.devRef .tc r) :=
  StableHlo.after_of_writes_sub hostOps0_1 V (by writes_listed hostOps0_1) h
theorem keep0_2 (h : r ∉ wr0_2) : StableHlo.after hostOps0_2 V (Proc.devRef .tc r) = V (Proc.devRef .tc r) :=
  StableHlo.after_of_writes_sub hostOps0_2 V (by writes_listed hostOps0_2) h
theorem keep1 (h : r ∉ wr1) : StableHlo.after hostOps1 V (Proc.devRef .tc r) = V (Proc.devRef .tc r) :=
  StableHlo.after_of_writes_sub hostOps1 V (by writes_listed hostOps1) h
theorem keep2 (h : r ∉ wr2) : StableHlo.after hostOps2 V (Proc.devRef .tc r) = V (Proc.devRef .tc r) :=
  StableHlo.after_of_writes_sub hostOps2 V (by writes_listed hostOps2) h
theorem keep3 (h : r ∉ wr3) : StableHlo.after hostOps3 V (Proc.devRef .tc r) = V (Proc.devRef .tc r) :=
  StableHlo.after_of_writes_sub hostOps3 V (by writes_listed hostOps3) h

end Keep

/-! ## What each list computes, from any contents

Run from any buffer contents `V`, a list leaves in each buffer it writes its operations' functions applied to what it
read of `V`. -/

section Lists

variable (V : Valuation τ sig (Elt Ideal))

/-- The first list slices row 0 off the edge list and drops the axis of extent one. -/
theorem list0_src : StableHlo.after hostOps0 V (Proc.devRef .tc main_v1) = Agg.srcRow (V (Proc.devRef .tc main_arg1)) := by
  after_results
  rfl

/-- It does the same with row 1. -/
theorem list0_dst : StableHlo.after hostOps0 V (Proc.devRef .tc main_v3) = Agg.dstRow (V (Proc.devRef .tc main_arg1)) := by
  after_results
  rfl

/-- It counts every node's incoming edges: a one added, for every edge, at the edge's destination. -/
theorem list0_deg : StableHlo.after hostOps0 V (Proc.devRef .tc main_v7) =
    Host.scatterAdd (F := Ideal) scatter_S50000_S600000x1_S600000_n_0_0_1
      (broadcastInDim S50000 ![] bcast_S_S50000 (constant S_ .f32 0x00000000#32))
      (broadcastInDim S600000x1 ![0] bcast_S600000_S600000x1_0 (Agg.dstRow (V (Proc.devRef .tc main_arg1))))
      (broadcastInDim S600000 ![] bcast_S_S600000 (constant S_ .f32 0x3F800000#32)) := by
  after_results
  rfl

/-- Its last operation is the constant one that the clipping joins the count with. -/
theorem list0_one : StableHlo.after hostOps0 V (Proc.devRef .tc main_cst_1) = constant (F := Ideal) S_ .f32 0x3F800000#32 := by
  after_results

/-- The clipping joins the count with the constant spread over the nodes. -/
theorem list0_1_clip : StableHlo.after hostOps0_1 V (Proc.devRef .tc main_v8) =
    maximumf (F := Ideal) (φ := .f32) (broadcastInDim S50000 ![] bcast_S_S50000
        (id (V (Proc.devRef .tc main_cst_1) : (⟨S_, .f32⟩ : BufTy).Contents (Elt Ideal))))
      (V (Proc.devRef .tc main_v7) : (⟨S50000, .f32⟩ : BufTy).Contents (Elt Ideal)) := by
  after_results
  rfl

/-- The third list divides one by the clipped count and stands the quotient up as a column. -/
theorem list0_2_inv : StableHlo.after hostOps0_2 V (Proc.devRef .tc main_v11) =
    broadcastInDim S50000x1 ![0] bcast_S50000_S50000x1_0
      (Host.divf (F := Ideal) (broadcastInDim S50000 ![] bcast_S_S50000 (constant S_ .f32 0x3F800000#32)) (V (Proc.devRef .tc main_v8))) := by
  after_results

/-- It gathers the features along the source row, adds them up along the destination row, and multiplies by that column. -/
theorem list0_2_agg : StableHlo.after hostOps0_2 V (Proc.devRef .tc main_v23) =
    Agg.aggMul (V (Proc.devRef .tc main_arg0)) (V (Proc.devRef .tc main_v1)) (V (Proc.devRef .tc main_v3))
      (broadcastInDim S50000x1 ![0] bcast_S50000_S50000x1_0
        (Host.divf (F := Ideal) (broadcastInDim S50000 ![] bcast_S_S50000 (constant S_ .f32 0x3F800000#32)) (V (Proc.devRef .tc main_v8)))) := by
  after_results_simp
  rfl

/-- It gives the first bias a leading axis of extent one. -/
theorem list0_2_b : StableHlo.after hostOps0_2 V (Proc.devRef .tc main_v24) =
    shapeCast _ (V (Proc.devRef .tc main_arg3)) shapeCasts_S128_S1x128 := by
  after_results
  rfl

/-- The list before the second region does the same with the first region's result and the column already there. -/
theorem list1_agg : StableHlo.after hostOps1 V (Proc.devRef .tc main_v37) =
    Agg.aggMul (V (Proc.devRef .tc main_v25)) (V (Proc.devRef .tc main_v1)) (V (Proc.devRef .tc main_v3)) (V (Proc.devRef .tc main_v11)) := by
  after_results_simp
  rfl

theorem list1_b : StableHlo.after hostOps1 V (Proc.devRef .tc main_v38) =
    shapeCast _ (V (Proc.devRef .tc main_arg6)) shapeCasts_S128_S1x128 := by
  after_results
  rfl

/-- The list before the third region, with the second region's result. -/
theorem list2_agg : StableHlo.after hostOps2 V (Proc.devRef .tc main_v51) =
    Agg.aggMul (V (Proc.devRef .tc main_v39)) (V (Proc.devRef .tc main_v1)) (V (Proc.devRef .tc main_v3)) (V (Proc.devRef .tc main_v11)) := by
  after_results_simp
  rfl

theorem list2_b : StableHlo.after hostOps2 V (Proc.devRef .tc main_v52) =
    shapeCast _ (V (Proc.devRef .tc main_arg9)) shapeCasts_S128_S1x128 := by
  after_results
  rfl

/-- The list before the last region gives the classifier's two biases a leading axis of extent one. -/
theorem list3_b1 : StableHlo.after hostOps3 V (Proc.devRef .tc main_v54) =
    shapeCast _ (V (Proc.devRef .tc main_arg12)) shapeCasts_S128_S1x128 := by
  after_results
  rfl

theorem list3_b2 : StableHlo.after hostOps3 V (Proc.devRef .tc main_v55) =
    shapeCast _ (V (Proc.devRef .tc main_arg14)) shapeCasts_S40_S1x40 := by
  after_results
  rfl

end Lists

variable (m : (ℓ : Loc nD τ sig) → Buf (Elt Ideal) ℓ) (ρ : Dev nD → PrngReg) (c : Dev nD)

/-! ## Buffers that hold their launch contents at a region's entry -/

/-- A buffer that neither of the first two lists writes holds, when the third list starts, what it held at launch. -/
theorem W2_launch {r : Ref sig .tc} (h0 : r ∉ wr0) (h1 : r ∉ wr0_1) :
    W2 m ρ c (Proc.devRef .tc r) = m ((c : Thread nD τ).loc r) :=
  (keep0_1 (W1 m ρ c) h1).trans (keep0 (W0 m ρ c) h0)

/-- A buffer that none of the three lists before the first region writes holds at that region's entry what it held at
    launch. -/
theorem W3_launch {r : Ref sig .tc} (h0 : r ∉ wr0) (h1 : r ∉ wr0_1) (h2 : r ∉ wr0_2) :
    W3 m ρ c (Proc.devRef .tc r) = m ((c : Thread nD τ).loc r) :=
  (keep0_2 (W2 m ρ c) h2).trans (W2_launch m ρ c h0 h1)

/-! ## Before the first region -/

theorem W1_src : W1 m ρ c (Proc.devRef .tc main_v1) = Agg.srcRow (m ((c : Thread nD τ).loc main_arg1)) :=
  list0_src (W0 m ρ c)

theorem W1_dst : W1 m ρ c (Proc.devRef .tc main_v3) = Agg.dstRow (m ((c : Thread nD τ).loc main_arg1)) :=
  list0_dst (W0 m ρ c)

theorem W2_src : W2 m ρ c (Proc.devRef .tc main_v1) = Agg.srcRow (m ((c : Thread nD τ).loc main_arg1)) :=
  (keep0_1 (W1 m ρ c) (by decide)).trans (W1_src m ρ c)

theorem W2_dst : W2 m ρ c (Proc.devRef .tc main_v3) = Agg.dstRow (m ((c : Thread nD τ).loc main_arg1)) :=
  (keep0_1 (W1 m ρ c) (by decide)).trans (W1_dst m ρ c)

/-- The clipped in-degree: the count of incoming edges joined with one. -/
theorem W2_clip : W2 m ρ c (Proc.devRef .tc main_v8) = Agg.clipDeg (Agg.dstRow (m ((c : Thread nD τ).loc main_arg1))) := by
  show StableHlo.after hostOps0_1 (W1 m ρ c) (Proc.devRef .tc main_v8) = _
  rw [list0_1_clip]
  show maximumf (F := Ideal) (broadcastInDim S50000 ![] bcast_S_S50000
      (id (StableHlo.after hostOps0 (W0 m ρ c) (Proc.devRef .tc main_cst_1))))
    (StableHlo.after hostOps0 (W0 m ρ c) (Proc.devRef .tc main_v7)) = _
  rw [list0_one, list0_deg]
  rfl

/-- The source row is not written again before the first region. -/
theorem W3_src : W3 m ρ c (Proc.devRef .tc main_v1) = Agg.srcRow (m ((c : Thread nD τ).loc main_arg1)) :=
  (keep0_2 (W2 m ρ c) (by decide)).trans (W2_src m ρ c)

/-- Nor is the destination row. -/
theorem W3_dst : W3 m ρ c (Proc.devRef .tc main_v3) = Agg.dstRow (m ((c : Thread nD τ).loc main_arg1)) :=
  (keep0_2 (W2 m ρ c) (by decide)).trans (W2_dst m ρ c)

/-- The reciprocal of the clipped in-degree, as a column. -/
theorem W3_inv : W3 m ρ c (Proc.devRef .tc main_v11) = Agg.invCol (Agg.dstRow (m ((c : Thread nD τ).loc main_arg1))) := by
  show StableHlo.after hostOps0_2 (W2 m ρ c) (Proc.devRef .tc main_v11) = _
  rw [list0_2_inv, W2_clip]
  rfl

/-- The first region's neighbour average: the launch features gathered along the source row, added up along the
    destination row, times the reciprocal column. -/
theorem W3_agg : W3 m ρ c (Proc.devRef .tc main_v23) =
    Agg.aggMul (m ((c : Thread nD τ).loc main_arg0)) (Agg.srcRow (m ((c : Thread nD τ).loc main_arg1)))
      (Agg.dstRow (m ((c : Thread nD τ).loc main_arg1))) (Agg.invCol (Agg.dstRow (m ((c : Thread nD τ).loc main_arg1)))) := by
  show StableHlo.after hostOps0_2 (W2 m ρ c) (Proc.devRef .tc main_v23) = _
  rw [list0_2_agg, W2_clip, W2_src, W2_dst, W2_launch m ρ c (r := main_arg0) (by decide) (by decide)]
  rfl

theorem W3_x : W3 m ρ c (Proc.devRef .tc main_arg0) = m ((c : Thread nD τ).loc main_arg0) :=
  W3_launch m ρ c (by decide) (by decide) (by decide)

theorem W3_wl : W3 m ρ c (Proc.devRef .tc main_arg2) = m ((c : Thread nD τ).loc main_arg2) :=
  W3_launch m ρ c (by decide) (by decide) (by decide)

/-- The first bias, as launched, with a leading axis of extent one. -/
theorem W3_b : W3 m ρ c (Proc.devRef .tc main_v24) = shapeCast _ (m ((c : Thread nD τ).loc main_arg3)) shapeCasts_S128_S1x128 := by
  show StableHlo.after hostOps0_2 (W2 m ρ c) (Proc.devRef .tc main_v24) = _
  rw [list0_2_b, W2_launch m ρ c (r := main_arg3) (by decide) (by decide)]

theorem W3_wr : W3 m ρ c (Proc.devRef .tc main_arg4) = m ((c : Thread nD τ).loc main_arg4) :=
  W3_launch m ρ c (by decide) (by decide) (by decide)

/-! ## From the first region's entry onward

A region changes only its own window arrays, and a list only the buffers it writes: a buffer that is neither holds at
every later boundary what it held at the first region's entry. -/

section Carry

variable {r : Ref sig .tc}

theorem W5_of_W3 (a0 : ∀ w, Pipeline.arrRef spec0 w ≠ r) (h1 : r ∉ wr1) :
    W5 m ρ c (Proc.devRef .tc r) = W3 m ρ c (Proc.devRef .tc r) :=
  (keep1 (W4 m ρ c) h1).trans (W4_of_ne m ρ c r a0)

theorem W6_of_W3 (a0 : ∀ w, Pipeline.arrRef spec0 w ≠ r) (h1 : r ∉ wr1) (a1 : ∀ w, Pipeline.arrRef spec1 w ≠ r) :
    W6 m ρ c (Proc.devRef .tc r) = W3 m ρ c (Proc.devRef .tc r) :=
  (W6_of_ne m ρ c r a1).trans (W5_of_W3 m ρ c a0 h1)

theorem W7_of_W3 (a0 : ∀ w, Pipeline.arrRef spec0 w ≠ r) (h1 : r ∉ wr1) (a1 : ∀ w, Pipeline.arrRef spec1 w ≠ r) (h2 : r ∉ wr2) :
    W7 m ρ c (Proc.devRef .tc r) = W3 m ρ c (Proc.devRef .tc r) :=
  (keep2 (W6 m ρ c) h2).trans (W6_of_W3 m ρ c a0 h1 a1)

theorem W9_of_W3 (a0 : ∀ w, Pipeline.arrRef spec0 w ≠ r) (h1 : r ∉ wr1) (a1 : ∀ w, Pipeline.arrRef spec1 w ≠ r) (h2 : r ∉ wr2)
    (a2 : ∀ w, Pipeline.arrRef spec2 w ≠ r) (h3 : r ∉ wr3) :
    W9 m ρ c (Proc.devRef .tc r) = W3 m ρ c (Proc.devRef .tc r) :=
  (keep3 (W8 m ρ c) h3).trans ((W8_of_ne m ρ c r a2).trans (W7_of_W3 m ρ c a0 h1 a1 h2))

end Carry

/-! ## Before the second region -/

theorem W4_src : W4 m ρ c (Proc.devRef .tc main_v1) = Agg.srcRow (m ((c : Thread nD τ).loc main_arg1)) :=
  (W4_of_ne m ρ c main_v1 (by decide)).trans (W3_src m ρ c)

theorem W4_dst : W4 m ρ c (Proc.devRef .tc main_v3) = Agg.dstRow (m ((c : Thread nD τ).loc main_arg1)) :=
  (W4_of_ne m ρ c main_v3 (by decide)).trans (W3_dst m ρ c)

theorem W4_inv : W4 m ρ c (Proc.devRef .tc main_v11) = Agg.invCol (Agg.dstRow (m ((c : Thread nD τ).loc main_arg1))) :=
  (W4_of_ne m ρ c main_v11 (by decide)).trans (W3_inv m ρ c)

/-- The second region's neighbour average is taken of the first region's result. -/
theorem W5_agg : W5 m ρ c (Proc.devRef .tc main_v37) =
    Agg.aggMul (W4 m ρ c (Proc.devRef .tc main_v25)) (Agg.srcRow (m ((c : Thread nD τ).loc main_arg1)))
      (Agg.dstRow (m ((c : Thread nD τ).loc main_arg1))) (Agg.invCol (Agg.dstRow (m ((c : Thread nD τ).loc main_arg1)))) := by
  show StableHlo.after hostOps1 (W4 m ρ c) (Proc.devRef .tc main_v37) = _
  rw [list1_agg, W4_src, W4_dst, W4_inv]

theorem W5_x : W5 m ρ c (Proc.devRef .tc main_v25) = W4 m ρ c (Proc.devRef .tc main_v25) :=
  keep1 (W4 m ρ c) (by decide)

theorem W5_wl : W5 m ρ c (Proc.devRef .tc main_arg5) = m ((c : Thread nD τ).loc main_arg5) :=
  (W5_of_W3 m ρ c (by decide) (by decide)).trans (W3_launch m ρ c (by decide) (by decide) (by decide))

theorem W5_b : W5 m ρ c (Proc.devRef .tc main_v38) = shapeCast _ (m ((c : Thread nD τ).loc main_arg6)) shapeCasts_S128_S1x128 := by
  show StableHlo.after hostOps1 (W4 m ρ c) (Proc.devRef .tc main_v38) = _
  rw [list1_b, (W4_of_ne m ρ c main_arg6 (by decide)).trans (W3_launch m ρ c (by decide) (by decide) (by decide))]

theorem W5_wr : W5 m ρ c (Proc.devRef .tc main_arg7) = m ((c : Thread nD τ).loc main_arg7) :=
  (W5_of_W3 m ρ c (by decide) (by decide)).trans (W3_launch m ρ c (by decide) (by decide) (by decide))

/-! ## Before the third region -/

theorem W6_src : W6 m ρ c (Proc.devRef .tc main_v1) = Agg.srcRow (m ((c : Thread nD τ).loc main_arg1)) :=
  (W6_of_W3 m ρ c (by decide) (by decide) (by decide)).trans (W3_src m ρ c)

theorem W6_dst : W6 m ρ c (Proc.devRef .tc main_v3) = Agg.dstRow (m ((c : Thread nD τ).loc main_arg1)) :=
  (W6_of_W3 m ρ c (by decide) (by decide) (by decide)).trans (W3_dst m ρ c)

theorem W6_inv : W6 m ρ c (Proc.devRef .tc main_v11) = Agg.invCol (Agg.dstRow (m ((c : Thread nD τ).loc main_arg1))) :=
  (W6_of_W3 m ρ c (by decide) (by decide) (by decide)).trans (W3_inv m ρ c)

/-- The third region's neighbour average is taken of the second region's result. -/
theorem W7_agg : W7 m ρ c (Proc.devRef .tc main_v51) =
    Agg.aggMul (W6 m ρ c (Proc.devRef .tc main_v39)) (Agg.srcRow (m ((c : Thread nD τ).loc main_arg1)))
      (Agg.dstRow (m ((c : Thread nD τ).loc main_arg1))) (Agg.invCol (Agg.dstRow (m ((c : Thread nD τ).loc main_arg1)))) := by
  show StableHlo.after hostOps2 (W6 m ρ c) (Proc.devRef .tc main_v51) = _
  rw [list2_agg, W6_src, W6_dst, W6_inv]

theorem W7_x : W7 m ρ c (Proc.devRef .tc main_v39) = W6 m ρ c (Proc.devRef .tc main_v39) :=
  keep2 (W6 m ρ c) (by decide)

theorem W7_wl : W7 m ρ c (Proc.devRef .tc main_arg8) = m ((c : Thread nD τ).loc main_arg8) :=
  (W7_of_W3 m ρ c (by decide) (by decide) (by decide) (by decide)).trans (W3_launch m ρ c (by decide) (by decide) (by decide))

theorem W7_b : W7 m ρ c (Proc.devRef .tc main_v52) = shapeCast _ (m ((c : Thread nD τ).loc main_arg9)) shapeCasts_S128_S1x128 := by
  show StableHlo.after hostOps2 (W6 m ρ c) (Proc.devRef .tc main_v52) = _
  rw [list2_b, (W6_of_W3 m ρ c (r := main_arg9) (by decide) (by decide) (by decide)).trans (W3_launch m ρ c (by decide) (by decide) (by decide))]

theorem W7_wr : W7 m ρ c (Proc.devRef .tc main_arg10) = m ((c : Thread nD τ).loc main_arg10) :=
  (W7_of_W3 m ρ c (by decide) (by decide) (by decide) (by decide)).trans (W3_launch m ρ c (by decide) (by decide) (by decide))

/-! ## Before the last region -/

/-- The classifier reads the third region's result as that region left it. -/
theorem W9_h : W9 m ρ c (Proc.devRef .tc main_v53) = W8 m ρ c (Proc.devRef .tc main_v53) :=
  keep3 (W8 m ρ c) (by decide)

theorem W9_w1 : W9 m ρ c (Proc.devRef .tc main_arg11) = m ((c : Thread nD τ).loc main_arg11) :=
  (W9_of_W3 m ρ c (by decide) (by decide) (by decide) (by decide) (by decide) (by decide)).trans
    (W3_launch m ρ c (by decide) (by decide) (by decide))

/-- A buffer the last list reads holds its launch contents when the list starts. -/
theorem W8_launch {r : Ref sig .tc} (h0 : r ∉ wr0) (h01 : r ∉ wr0_1) (h02 : r ∉ wr0_2) (a0 : ∀ w, Pipeline.arrRef spec0 w ≠ r) (h1 : r ∉ wr1)
    (a1 : ∀ w, Pipeline.arrRef spec1 w ≠ r) (h2 : r ∉ wr2) (a2 : ∀ w, Pipeline.arrRef spec2 w ≠ r) :
    W8 m ρ c (Proc.devRef .tc r) = m ((c : Thread nD τ).loc r) :=
  (W8_of_ne m ρ c r a2).trans ((W7_of_W3 m ρ c a0 h1 a1 h2).trans (W3_launch m ρ c h0 h01 h02))

theorem W9_b1 : W9 m ρ c (Proc.devRef .tc main_v54) = shapeCast _ (m ((c : Thread nD τ).loc main_arg12)) shapeCasts_S128_S1x128 := by
  show StableHlo.after hostOps3 (W8 m ρ c) (Proc.devRef .tc main_v54) = _
  rw [list3_b1, W8_launch m ρ c (r := main_arg12) (by decide) (by decide) (by decide) (by decide) (by decide) (by decide) (by decide) (by decide)]

theorem W9_w2 : W9 m ρ c (Proc.devRef .tc main_arg13) = m ((c : Thread nD τ).loc main_arg13) :=
  (W9_of_W3 m ρ c (by decide) (by decide) (by decide) (by decide) (by decide) (by decide)).trans
    (W3_launch m ρ c (by decide) (by decide) (by decide))

theorem W9_b2 : W9 m ρ c (Proc.devRef .tc main_v55) = shapeCast _ (m ((c : Thread nD τ).loc main_arg14)) shapeCasts_S40_S1x40 := by
  show StableHlo.after hostOps3 (W8 m ρ c) (Proc.devRef .tc main_v55) = _
  rw [list3_b2, W8_launch m ρ c (r := main_arg14) (by decide) (by decide) (by decide) (by decide) (by decide) (by decide) (by decide) (by decide)]

end Cert.KernelIdeal.Stretch

end
-- ==== Proof.Net.lean ====
/-
  The whole network over an abstract neighbour aggregation `A`: three layers, each fed the aggregate of the features
  before it, then the classifier. The two programs differ only in how they compute `A`; if their aggregations
  agree on every input, the networks agree.
-/
import proofs.«165760_j91216515432812_1_alg».proof.Proof.Spec

noncomputable section

namespace Cert.Sage

open Idealize.ShloMosaic

/-- The features after the first layer. -/
def feat1 (A : (NodeFeat.Idx → EReal) → NodeFeat.Idx → EReal) (x : NodeFeat.Idx → EReal)
    (wl1 : Weight.Idx → EReal) (bl1 : Bias.Idx → EReal) (wr1 : Weight.Idx → EReal) : NodeFeat.Idx → EReal :=
  layer (A x) x wl1 bl1 wr1

/-- The features after the second layer. -/
def feat2 (A : (NodeFeat.Idx → EReal) → NodeFeat.Idx → EReal) (x : NodeFeat.Idx → EReal)
    (wl1 : Weight.Idx → EReal) (bl1 : Bias.Idx → EReal) (wr1 : Weight.Idx → EReal)
    (wl2 : Weight.Idx → EReal) (bl2 : Bias.Idx → EReal) (wr2 : Weight.Idx → EReal) : NodeFeat.Idx → EReal :=
  layer (A (feat1 A x wl1 bl1 wr1)) (feat1 A x wl1 bl1 wr1) wl2 bl2 wr2

/-- The features after the third layer. -/
def feat3 (A : (NodeFeat.Idx → EReal) → NodeFeat.Idx → EReal) (x : NodeFeat.Idx → EReal)
    (wl1 : Weight.Idx → EReal) (bl1 : Bias.Idx → EReal) (wr1 : Weight.Idx → EReal)
    (wl2 : Weight.Idx → EReal) (bl2 : Bias.Idx → EReal) (wr2 : Weight.Idx → EReal)
    (wl3 : Weight.Idx → EReal) (bl3 : Bias.Idx → EReal) (wr3 : Weight.Idx → EReal) : NodeFeat.Idx → EReal :=
  layer (A (feat2 A x wl1 bl1 wr1 wl2 bl2 wr2)) (feat2 A x wl1 bl1 wr1 wl2 bl2 wr2) wl3 bl3 wr3

/-- The network's output: the classifier on the third layer's features. -/
def net (A : (NodeFeat.Idx → EReal) → NodeFeat.Idx → EReal) (x : NodeFeat.Idx → EReal)
    (wl1 : Weight.Idx → EReal) (bl1 : Bias.Idx → EReal) (wr1 : Weight.Idx → EReal)
    (wl2 : Weight.Idx → EReal) (bl2 : Bias.Idx → EReal) (wr2 : Weight.Idx → EReal)
    (wl3 : Weight.Idx → EReal) (bl3 : Bias.Idx → EReal) (wr3 : Weight.Idx → EReal)
    (w1 : Weight.Idx → EReal) (b1 : Bias.Idx → EReal) (w2 : OutWeight.Idx → EReal) (b2 : OutBias.Idx → EReal) : Scores.Idx → EReal :=
  head (feat3 A x wl1 bl1 wr1 wl2 bl2 wr2 wl3 bl3 wr3) w1 b1 w2 b2

/-- Aggregations that agree on every input give the same network. -/
theorem net_congr (A B : (NodeFeat.Idx → EReal) → NodeFeat.Idx → EReal) (hAB : ∀ y, A y = B y) (x : NodeFeat.Idx → EReal)
    (wl1 : Weight.Idx → EReal) (bl1 : Bias.Idx → EReal) (wr1 : Weight.Idx → EReal)
    (wl2 : Weight.Idx → EReal) (bl2 : Bias.Idx → EReal) (wr2 : Weight.Idx → EReal)
    (wl3 : Weight.Idx → EReal) (bl3 : Bias.Idx → EReal) (wr3 : Weight.Idx → EReal)
    (w1 : Weight.Idx → EReal) (b1 : Bias.Idx → EReal) (w2 : OutWeight.Idx → EReal) (b2 : OutBias.Idx → EReal) :
    net A x wl1 bl1 wr1 wl2 bl2 wr2 wl3 bl3 wr3 w1 b1 w2 b2 = net B x wl1 bl1 wr1 wl2 bl2 wr2 wl3 bl3 wr3 w1 b1 w2 b2 := by
  have e : A = B := funext hAB
  rw [e]

end Cert.Sage

end
-- ==== Proof.KernelValue.lean ====
/-
  What the kernel program's run leaves in its result buffer: the network over the multiply-by-reciprocal aggregation.

  Each region's output array is the specification's layer (or classifier) of what the region finds in its windows'
  arrays. What it finds is, for the weights, the launch contents; for a bias, the launch vector recast as a one-row
  matrix, whose row is the vector again; for the features, the array the region before left (the launch features for
  the first region); and for the aggregate, the edge sum of those features times the reciprocal of the clipped
  in-degree. Chaining the four regions gives the network.
-/
import proofs.«165760_j91216515432812_1_alg».proof.Proof.KernelLayer0
import proofs.«165760_j91216515432812_1_alg».proof.Proof.KernelLayer1
import proofs.«165760_j91216515432812_1_alg».proof.Proof.KernelLayer2
import proofs.«165760_j91216515432812_1_alg».proof.Proof.KernelHead
import proofs.«165760_j91216515432812_1_alg».proof.Proof.KernelStretches
import proofs.«165760_j91216515432812_1_alg».proof.Proof.Net
import proofs.«165760_j91216515432812_1_alg».proof.Proof.Aggregate
import proofs.«165760_j91216515432812_1_alg».proof.Proof.BiasRow

set_option maxRecDepth 16384

noncomputable section

namespace Cert.KernelIdeal.NetValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The kernel program's aggregation of features `h`: their edge sum times the reciprocal of the clipped in-degree, the
    two rows of the edge list read off the launch contents. -/
def aggK (h : (⟨S50000x128, .f32⟩ : BufTy).Contents (Elt Ideal)) : (⟨S50000x128, .f32⟩ : BufTy).Contents (Elt Ideal) :=
  Agg.aggMul h (Agg.srcRow (m ((c : Thread nD τ).loc main_arg1))) (Agg.dstRow (m ((c : Thread nD τ).loc main_arg1))) (Agg.invCol (Agg.dstRow (m ((c : Thread nD τ).loc main_arg1))))

/-- The first region leaves the first layer's features. -/
theorem out0 : W4 m ρ c (Proc.devRef .tc main_v25)
    = Cert.Sage.feat1 (aggK m c) (m ((c : Thread nD τ).loc main_arg0)) (m ((c : Thread nD τ).loc main_arg2)) (m ((c : Thread nD τ).loc main_arg3)) (m ((c : Thread nD τ).loc main_arg4)) := by
  refine (W4_arr m ρ c 5).trans ?_
  rw [RegionValue.layer0 (V3 m ρ) c]
  show Cert.Sage.layer (W3 m ρ c (Proc.devRef .tc main_v23)) (W3 m ρ c (Proc.devRef .tc main_arg0)) (W3 m ρ c (Proc.devRef .tc main_arg2))
    (Cert.Sage.rowOf (W3 m ρ c (Proc.devRef .tc main_v24))) (W3 m ρ c (Proc.devRef .tc main_arg4)) = _
  rw [Stretch.W3_agg, Stretch.W3_x, Stretch.W3_wl, Stretch.W3_b, Stretch.W3_wr, Cert.Sage.rowOf_shapeCast]
  rfl

/-- The second region leaves the second layer's features. -/
theorem out1 : W6 m ρ c (Proc.devRef .tc main_v39)
    = Cert.Sage.feat2 (aggK m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ?_
  rw [RegionValue.layer1 (V5 m ρ) c]
  show Cert.Sage.layer (W5 m ρ c (Proc.devRef .tc main_v37)) (W5 m ρ c (Proc.devRef .tc main_v25)) (W5 m ρ c (Proc.devRef .tc main_arg5))
    (Cert.Sage.rowOf (W5 m ρ c (Proc.devRef .tc main_v38))) (W5 m ρ c (Proc.devRef .tc main_arg7)) = _
  rw [Stretch.W5_agg, Stretch.W5_x, Stretch.W5_wl, Stretch.W5_b, Stretch.W5_wr, Cert.Sage.rowOf_shapeCast, out0]
  rfl

/-- The third region leaves the third layer's features. -/
theorem out2 : W8 m ρ c (Proc.devRef .tc main_v53)
    = Cert.Sage.feat3 (aggK m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 5).trans ?_
  rw [RegionValue.layer2 (V7 m ρ) c]
  show Cert.Sage.layer (W7 m ρ c (Proc.devRef .tc main_v51)) (W7 m ρ c (Proc.devRef .tc main_v39)) (W7 m ρ c (Proc.devRef .tc main_arg8))
    (Cert.Sage.rowOf (W7 m ρ c (Proc.devRef .tc main_v52))) (W7 m ρ c (Proc.devRef .tc main_arg10)) = _
  rw [Stretch.W7_agg, Stretch.W7_x, Stretch.W7_wl, Stretch.W7_b, Stretch.W7_wr, Cert.Sage.rowOf_shapeCast, out1]
  rfl

/-- The last region leaves the network's output in the result buffer. -/
theorem result : W10 m ρ c (Proc.devRef .tc main_v56)
    = Cert.Sage.net (aggK m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 5).trans ?_
  rw [RegionValue.head3 (V9 m ρ) c]
  show Cert.Sage.head (W9 m ρ c (Proc.devRef .tc main_v53)) (W9 m ρ c (Proc.devRef .tc main_arg11))
    (Cert.Sage.rowOf (W9 m ρ c (Proc.devRef .tc main_v54))) (W9 m ρ c (Proc.devRef .tc main_arg13))
    (Cert.Sage.rowOf (W9 m ρ c (Proc.devRef .tc main_v55))) = _
  rw [Stretch.W9_h, Stretch.W9_w1, Stretch.W9_b1, Stretch.W9_w2, Stretch.W9_b2, Cert.Sage.rowOf_shapeCast, Cert.Sage.rowOf_shapeCast, out2]
  rfl

end Cert.KernelIdeal.NetValue

end
-- ==== Proof.RefLayers.lean ====
/-
  The reference network, layer by layer.

  Each of the reference's three neighbour averages is the quotient of an edge sum by the clipped in-degree: the same
  named host function of the features before it and the two rows of the edge list. Each of its three layers, read
  at an entry, is `max (agg · Wl + bl + x · Wr) 0` with both products sums over the 128 contracted coordinates and
  the bias row spread over the nodes: the specification's layer of that average and of the layer's input. Chained
  from the outside in, with the classifier on top, the reference's output is the network over that one aggregation.
-/
import proofs.«165760_j91216515432812_1_alg».proof.Proof.RefReadP
import proofs.«165760_j91216515432812_1_alg».proof.Proof.Spec
import proofs.«165760_j91216515432812_1_alg».proof.Proof.Net
import proofs.«165760_j91216515432812_1_alg».proof.Proof.Aggregate
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 x11 : (⟨S128x128, .f32⟩ : BufTy).Contents (Elt Ideal)) (x12 : (⟨S128, .f32⟩ : BufTy).Contents (Elt Ideal))
  (x13 : (⟨S128x40, .f32⟩ : BufTy).Contents (Elt Ideal)) (x14 : (⟨S40, .f32⟩ : BufTy).Contents (Elt Ideal))

/-! ## The three neighbour averages

Every stage below the quotient is a layout operation, a constant, or the gather and the scatter-add, all applied to
the same operands in the same order as in the named host function; nothing is read at an index. -/

/-- The first neighbour average: the edge sum of the input features over the clipped in-degree. -/
theorem agg1 :
    val_main_v21 (F := Ideal) x0 x1 = Cert.KernelIdeal.Agg.aggDiv (F := Ideal) x0 (Cert.KernelIdeal.Agg.srcRow x1) (Cert.KernelIdeal.Agg.dstRow x1) := by
  unfold val_main_v21 val_main_v13 val_main_v10
  unfold val_main_v20 val_main_v19 val_main_v18 val_main_call0_v1 val_main_call0_v0 val_main_cst_3 val_main_v17 val_main_v16 val_main_v15 val_main_cst_2 val_main_v14 val_main_cst_1 val_main_v12 val_main_v11 val_main_cst val_main_v9 val_main_v8 val_main_v7 val_main_v6 val_main_c_0 val_main_v5 val_main_v4 val_main_c val_main_v3 val_main_v2 val_main_v1 val_main_v0
  unfold Cert.KernelIdeal.Agg.aggDiv Cert.KernelIdeal.Agg.edgeSum Cert.KernelIdeal.Agg.srcCol Cert.KernelIdeal.Agg.clipDeg Cert.KernelIdeal.Agg.srcRow Cert.KernelIdeal.Agg.dstRow
  rfl

/-- The second neighbour average: the edge sum of the first layer's features over the clipped in-degree. -/
theorem agg2 :
    val_main_v46 (F := Ideal) x0 x1 x2 x3 x4 = Cert.KernelIdeal.Agg.aggDiv (F := Ideal) (val_main_v28 x0 x1 x2 x3 x4) (Cert.KernelIdeal.Agg.srcRow x1) (Cert.KernelIdeal.Agg.dstRow x1) := by
  unfold val_main_v46 val_main_v38 val_main_v35
  generalize val_main_v28 (F := Ideal) x0 x1 x2 x3 x4 = h
  unfold val_main_v45 val_main_v44 val_main_v43 val_main_call2_v1 val_main_call2_v0 val_main_cst_9 val_main_v42 val_main_v41 val_main_v40 val_main_cst_8 val_main_v39 val_main_cst_7 val_main_v37 val_main_v36 val_main_cst_6 val_main_v34 val_main_v33 val_main_v32 val_main_v31 val_main_c_5 val_main_v30 val_main_v29 val_main_c_4 val_main_v3 val_main_v2 val_main_v1 val_main_v0
  unfold Cert.KernelIdeal.Agg.aggDiv Cert.KernelIdeal.Agg.edgeSum Cert.KernelIdeal.Agg.srcCol Cert.KernelIdeal.Agg.clipDeg Cert.KernelIdeal.Agg.srcRow Cert.KernelIdeal.Agg.dstRow
  rfl

/-- The third neighbour average: the edge sum of the second layer's features over the clipped in-degree. -/
theorem agg3 :
    val_main_v71 (F := Ideal) x0 x1 x2 x3 x4 x5 x6 x7 = Cert.KernelIdeal.Agg.aggDiv (F := Ideal) (val_main_v53 x0 x1 x2 x3 x4 x5 x6 x7) (Cert.KernelIdeal.Agg.srcRow x1) (Cert.KernelIdeal.Agg.dstRow x1) := by
  unfold val_main_v71 val_main_v63 val_main_v60
  generalize val_main_v53 (F := Ideal) x0 x1 x2 x3 x4 x5 x6 x7 = h
  unfold val_main_v70 val_main_v69 val_main_v68 val_main_call4_v1 val_main_call4_v0 val_main_cst_15 val_main_v67 val_main_v66 val_main_v65 val_main_cst_14 val_main_v64 val_main_cst_13 val_main_v62 val_main_v61 val_main_cst_12 val_main_v59 val_main_v58 val_main_v57 val_main_v56 val_main_c_11 val_main_v55 val_main_v54 val_main_c_10 val_main_v3 val_main_v2 val_main_v1 val_main_v0
  unfold Cert.KernelIdeal.Agg.aggDiv Cert.KernelIdeal.Agg.edgeSum Cert.KernelIdeal.Agg.srcCol Cert.KernelIdeal.Agg.clipDeg Cert.KernelIdeal.Agg.srcRow Cert.KernelIdeal.Agg.dstRow
  rfl

/-! ## The index functions of the products and of the bias row

A product's left operand is read at row `i 0` and contracted coordinate `k`, its right operand at `k` and column
`i 1`; the bias, spread first to one row and then over the nodes, is read at column `i 1`. -/

theorem lidx_v22 (i : S50000x128.Idx) (k : Fin 128) : lidx_main_v22 i k = @ix2 50000 128 (i 0) k :=
  funext fun a => Fin.ext (by match a with | ⟨0, _⟩ => rfl | ⟨1, _⟩ => rfl)
theorem ridx_v22 (i : S50000x128.Idx) (k : Fin 128) : ridx_main_v22 i k = @ix2 128 128 k (i 1) :=
  funext fun a => Fin.ext (by match a with | ⟨0, _⟩ => rfl | ⟨1, _⟩ => rfl)
theorem lidx_v26 (i : S50000x128.Idx) (k : Fin 128) : lidx_main_v26 i k = @ix2 50000 128 (i 0) k :=
  funext fun a => Fin.ext (by match a with | ⟨0, _⟩ => rfl | ⟨1, _⟩ => rfl)
theorem ridx_v26 (i : S50000x128.Idx) (k : Fin 128) : ridx_main_v26 i k = @ix2 128 128 k (i 1) :=
  funext fun a => Fin.ext (by match a with | ⟨0, _⟩ => rfl | ⟨1, _⟩ => rfl)
theorem bias_v24 (i : S50000x128.Idx) : idx_main_v23 (idx_main_v24 i) = @ix1 128 (i 1) :=
  funext fun a => Fin.ext (by match a with | ⟨0, _⟩ => rfl)

theorem lidx_v47 (i : S50000x128.Idx) (k : Fin 128) : lidx_main_v47 i k = @ix2 50000 128 (i 0) k :=
  funext fun a => Fin.ext (by match a with | ⟨0, _⟩ => rfl | ⟨1, _⟩ => rfl)
theorem ridx_v47 (i : S50000x128.Idx) (k : Fin 128) : ridx_main_v47 i k = @ix2 128 128 k (i 1) :=
  funext fun a => Fin.ext (by match a with | ⟨0, _⟩ => rfl | ⟨1, _⟩ => rfl)
theorem lidx_v51 (i : S50000x128.Idx) (k : Fin 128) : lidx_main_v51 i k = @ix2 50000 128 (i 0) k :=
  funext fun a => Fin.ext (by match a with | ⟨0, _⟩ => rfl | ⟨1, _⟩ => rfl)
theorem ridx_v51 (i : S50000x128.Idx) (k : Fin 128) : ridx_main_v51 i k = @ix2 128 128 k (i 1) :=
  funext fun a => Fin.ext (by match a with | ⟨0, _⟩ => rfl | ⟨1, _⟩ => rfl)
theorem bias_v49 (i : S50000x128.Idx) : idx_main_v48 (idx_main_v49 i) = @ix1 128 (i 1) :=
  funext fun a => Fin.ext (by match a with | ⟨0, _⟩ => rfl)

theorem lidx_v72 (i : S50000x128.Idx) (k : Fin 128) : lidx_main_v72 i k = @ix2 50000 128 (i 0) k :=
  funext fun a => Fin.ext (by match a with | ⟨0, _⟩ => rfl | ⟨1, _⟩ => rfl)
theorem ridx_v72 (i : S50000x128.Idx) (k : Fin 128) : ridx_main_v72 i k = @ix2 128 128 k (i 1) :=
  funext fun a => Fin.ext (by match a with | ⟨0, _⟩ => rfl | ⟨1, _⟩ => rfl)
theorem lidx_v76 (i : S50000x128.Idx) (k : Fin 128) : lidx_main_v76 i k = @ix2 50000 128 (i 0) k :=
  funext fun a => Fin.ext (by match a with | ⟨0, _⟩ => rfl | ⟨1, _⟩ => rfl)
theorem ridx_v76 (i : S50000x128.Idx) (k : Fin 128) : ridx_main_v76 i k = @ix2 128 128 k (i 1) :=
  funext fun a => Fin.ext (by match a with | ⟨0, _⟩ => rfl | ⟨1, _⟩ => rfl)
theorem bias_v74 (i : S50000x128.Idx) : idx_main_v73 (idx_main_v74 i) = @ix1 128 (i 1) :=
  funext fun a => Fin.ext (by match a with | ⟨0, _⟩ => rfl)

/-! ## The three layers -/

/-- The first layer is the specification's layer of the first neighbour average and the input features. -/
theorem layer1 :
    val_main_v28 (F := Ideal) x0 x1 x2 x3 x4 = Cert.Sage.layer (val_main_v21 x0 x1) x0 x2 x3 x4 := by
  funext i
  rw [val_main_v28_apply, val_main_v27_apply, val_main_v25_apply, val_main_v22_apply, val_main_v24_apply, val_main_v23_apply, val_main_v26_apply,
    val_main_call1_v0_apply, val_main_call1_cst_apply]
  generalize val_main_v21 (F := Ideal) x0 x1 = a
  unfold Cert.Sage.layer Cert.Sage.rowDot
  simp only [Ideal.maximumf_def, Ideal.addf_def, Ideal.ofBits_def, lidx_v22, ridx_v22, lidx_v26, ridx_v26, bias_v24]

/-- The second layer is the specification's layer of the second neighbour average and the first layer's features. -/
theorem layer2 :
    val_main_v53 (F := Ideal) x0 x1 x2 x3 x4 x5 x6 x7 = Cert.Sage.layer (val_main_v46 x0 x1 x2 x3 x4) (val_main_v28 x0 x1 x2 x3 x4) x5 x6 x7 := by
  funext i
  rw [val_main_v53_apply, val_main_v52_apply, val_main_v50_apply, val_main_v47_apply, val_main_v49_apply, val_main_v48_apply, val_main_v51_apply,
    val_main_call3_v0_apply, val_main_call3_cst_apply]
  generalize val_main_v46 (F := Ideal) x0 x1 x2 x3 x4 = a
  generalize val_main_v28 (F := Ideal) x0 x1 x2 x3 x4 = x
  unfold Cert.Sage.layer Cert.Sage.rowDot
  simp only [Ideal.maximumf_def, Ideal.addf_def, Ideal.ofBits_def, lidx_v47, ridx_v47, lidx_v51, ridx_v51, bias_v49]

/-- The third layer is the specification's layer of the third neighbour average and the second layer's features. -/
theorem layer3 :
    val_main_v78 (F := Ideal) x0 x1 x2 x3 x4 x5 x6 x7 x8 x9 x10 = Cert.Sage.layer (val_main_v71 x0 x1 x2 x3 x4 x5 x6 x7) (val_main_v53 x0 x1 x2 x3 x4 x5 x6 x7) x8 x9 x10 := by
  funext i
  rw [val_main_v78_apply, val_main_v77_apply, val_main_v75_apply, val_main_v72_apply, val_main_v74_apply, val_main_v73_apply, val_main_v76_apply,
    val_main_call5_v0_apply, val_main_call5_cst_apply]
  generalize val_main_v71 (F := Ideal) x0 x1 x2 x3 x4 x5 x6 x7 = a
  generalize val_main_v53 (F := Ideal) x0 x1 x2 x3 x4 x5 x6 x7 = x
  unfold Cert.Sage.layer Cert.Sage.rowDot
  simp only [Ideal.maximumf_def, Ideal.addf_def, Ideal.ofBits_def, lidx_v72, ridx_v72, lidx_v76, ridx_v76, bias_v74]

/-! ## The whole reference -/

/-- Given that the reference's last stages are the classifier on its third layer's features, the reference's output
    is the network whose aggregation divides the edge sum by the clipped in-degree. -/
theorem ref_value
    (hhead : val_main_v88 (F := Ideal) x0 x1 x2 x3 x4 x5 x6 x7 x8 x9 x10 x11 x12 x13 x14
      = Cert.Sage.head (val_main_v78 x0 x1 x2 x3 x4 x5 x6 x7 x8 x9 x10) x11 x12 x13 x14) :
    val_main_v88 (F := Ideal) x0 x1 x2 x3 x4 x5 x6 x7 x8 x9 x10 x11 x12 x13 x14
      = Cert.Sage.net (fun h => Cert.KernelIdeal.Agg.aggDiv (F := Ideal) h (Cert.KernelIdeal.Agg.srcRow x1) (Cert.KernelIdeal.Agg.dstRow x1))
          x0 x2 x3 x4 x5 x6 x7 x8 x9 x10 x11 x12 x13 x14 := by
  unfold Cert.Sage.net Cert.Sage.feat3 Cert.Sage.feat2 Cert.Sage.feat1
  rw [hhead, layer3, agg3, layer2, agg2, layer1, agg1]

end Cert.ReferenceIdeal.RefValue

end
-- ==== Proof.RefHead.lean ====
/-
  The reference's classifier, read entry by entry.

  After its three layers the reference multiplies the features by a 128 × 128 matrix, adds a bias row and clips
  at zero; multiplies by a 128 × 40 matrix and adds a second bias row (the scores); and takes the log-softmax of
  every row of scores: the row's maximum (a fold of `max` from -∞, joined once more with -∞), the scores minus
  that maximum, the logarithm of the row's sum of their exponentials, and the difference of the two.

  Each stage is read at an index from the stage before it; the composed index functions are the plain
  coordinate pairs (r, k), (k, q) and the single coordinates (q), (r). The row sum starts from the zero word,
  which is the extended real 0 and drops out. Nothing is assumed of the features: they stay a variable.
-/
import proofs.«165760_j91216515432812_1_alg».proof.Proof.RefReadP
import proofs.«165760_j91216515432812_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx

/-! ## A row's maximum -/

/-- A row index with the column `k` put back is the entry (r, k). -/
theorem lift_row (h : S50000x40.Reduces [1] S50000) (r : Fin 50000) (k : Fin 40) :
    h.lift (ix1 r) k = ix2 r k := by
  funext c
  apply Fin.ext
  match c with
  | ⟨0, _⟩ => rfl
  | ⟨1, _⟩ => rfl

/-- Reducing a 50000 × 40 array along its rows with `max` from -∞ gives, at row `r`, the fold of `max` over that
    row's forty entries. -/
theorem rowReduceMax (z : FVec Ideal S50000x40 .f32) (r : Fin 50000) :
    Host.reduce FloatOps.maximumf z (constant (F := Ideal) S_ .f32 0xFF800000#32) reducesTo_S50000x40_S50000_d1 h_S_ (ix1 r)
      = (Finset.univ : Finset (Fin 40)).fold max (Ideal.ofBits .f32 0xFF800000#32) (fun k : Fin 40 => z (ix2 r k)) := by
  have h : S50000x40.Reduces [1] S50000 := by decide
  rw [Host.reduce_eq_fold_single FloatOps.maximumf z _ reducesTo_S50000x40_S50000_d1 h h_S_]
  have hf : (z ∘ h.lift (ix1 r)) = fun k : Fin 40 => z (ix2 r k) := funext fun k => congrArg z (lift_row h r k)
  exact congrArg (fun f => Finset.fold max (Ideal.ofBits .f32 0xFF800000#32) f (Finset.univ : Finset (Fin 40))) hf

/-! ## The stages, at an entry -/

section Stages

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 x11 : (⟨S128x128, .f32⟩ : BufTy).Contents (Elt Ideal)) (x12 : (⟨S128, .f32⟩ : BufTy).Contents (Elt Ideal))
  (x13 : (⟨S128x40, .f32⟩ : BufTy).Contents (Elt Ideal)) (x14 : (⟨S40, .f32⟩ : BufTy).Contents (Elt Ideal))

/-- The clipped hidden layer at (r, c): the features' row `r` against column `c` of the first matrix, plus the bias
    at `c`, joined with zero. -/
theorem hidden_apply (r : Fin 50000) (c : Fin 128) :
    val_main_v83 (F := Ideal) x0 x1 x2 x3 x4 x5 x6 x7 x8 x9 x10 x11 x12 (ix2 r c)
      = Cert.Sage.hidden (val_main_v78 (F := Ideal) x0 x1 x2 x3 x4 x5 x6 x7 x8 x9 x10) x11 x12 (ix2 r c) := by
  rw [val_main_v83_apply, val_main_v82_apply, val_main_v79_apply, val_main_v81_apply, val_main_v80_apply,
    val_main_call6_v0_apply, val_main_call6_cst_apply]
  generalize val_main_v78 (F := Ideal) x0 x1 x2 x3 x4 x5 x6 x7 x8 x9 x10 = h
  have el : ∀ k : Fin 128, lidx_main_v79 (ix2 r c) k = ix2 r k := fun k =>
    funext fun a => Fin.ext (by match a with | ⟨0, _⟩ => rfl | ⟨1, _⟩ => rfl)
  have er : ∀ k : Fin 128, ridx_main_v79 (ix2 r c) k = ix2 k c := fun k =>
    funext fun a => Fin.ext (by match a with | ⟨0, _⟩ => rfl | ⟨1, _⟩ => rfl)
  have eb : idx_main_v80 (idx_main_v81 (ix2 r c)) = ix1 c :=
    funext fun a => Fin.ext (by match a with | ⟨0, _⟩ => rfl)
  simp only [el, er, eb, Ideal.maximumf_def, Ideal.addf_def, Ideal.ofBits_def]
  rfl

/-- The scores at (r, q): the hidden layer's row `r` against column `q` of the second matrix, plus the bias at `q`. -/
theorem logit_apply (r : Fin 50000) (q : Fin 40) :
    val_main_v87 (F := Ideal) x0 x1 x2 x3 x4 x5 x6 x7 x8 x9 x10 x11 x12 x13 x14 (ix2 r q)
      = Cert.Sage.logit (Cert.Sage.hidden (val_main_v78 (F := Ideal) x0 x1 x2 x3 x4 x5 x6 x7 x8 x9 x10) x11 x12) x13 x14 r q := by
  rw [val_main_v87_apply, val_main_v84_apply, val_main_v86_apply, val_main_v85_apply]
  have el : ∀ k : Fin 128, lidx_main_v84 (ix2 r q) k = ix2 r k := fun k =>
    funext fun a => Fin.ext (by match a with | ⟨0, _⟩ => rfl | ⟨1, _⟩ => rfl)
  have er : ∀ k : Fin 128, ridx_main_v84 (ix2 r q) k = ix2 k q := fun k =>
    funext fun a => Fin.ext (by match a with | ⟨0, _⟩ => rfl | ⟨1, _⟩ => rfl)
  have eb : idx_main_v85 (idx_main_v86 (ix2 r q)) = ix1 q :=
    funext fun a => Fin.ext (by match a with | ⟨0, _⟩ => rfl)
  simp only [el, er, eb, hidden_apply, Ideal.addf_def]
  rfl

/-- The row maximum at `r`: the fold of `max` over the row's scores from -∞, joined once more with -∞. -/
theorem rowMax_apply (r : Fin 50000) :
    val_main_call7_v2 (F := Ideal) x0 x1 x2 x3 x4 x5 x6 x7 x8 x9 x10 x11 x12 x13 x14 (ix1 r)
      = Cert.Sage.rowMax (fun k : Fin 40 => val_main_v87 (F := Ideal) x0 x1 x2 x3 x4 x5 x6 x7 x8 x9 x10 x11 x12 x13 x14 (ix2 r k)) := by
  rw [val_main_call7_v2_apply, val_main_call7_v1_apply, val_main_call7_cst_0_apply]
  unfold val_main_call7_v0 val_main_call7_cst
  rw [rowReduceMax]
  simp only [Ideal.maximumf_def, Ideal.ofBits_def]
  rfl

/-- The shifted scores at (r, q): the score minus its row's maximum. -/
theorem shifted_apply (r : Fin 50000) (q : Fin 40) :
    val_main_call7_v5 (F := Ideal) x0 x1 x2 x3 x4 x5 x6 x7 x8 x9 x10 x11 x12 x13 x14 (ix2 r q)
      = val_main_v87 (F := Ideal) x0 x1 x2 x3 x4 x5 x6 x7 x8 x9 x10 x11 x12 x13 x14 (ix2 r q)
        - Cert.Sage.rowMax (fun k : Fin 40 => val_main_v87 (F := Ideal) x0 x1 x2 x3 x4 x5 x6 x7 x8 x9 x10 x11 x12 x13 x14 (ix2 r k)) := by
  rw [val_main_call7_v5_apply, val_main_call7_v4_apply, val_main_call7_v3_apply]
  have e : idx_main_call7_v3 (idx_main_call7_v4 (ix2 r q)) = ix1 r :=
    funext fun a => Fin.ext (by match a with | ⟨0, _⟩ => rfl)
  rw [e, rowMax_apply]
  rfl

/-- The row's sum of exponentials at `r`; the zero it starts from drops out. -/
theorem sumExp_apply (r : Fin 50000) :
    val_main_call7_v7 (F := Ideal) x0 x1 x2 x3 x4 x5 x6 x7 x8 x9 x10 x11 x12 x13 x14 (ix1 r)
      = ∑ k : Fin 40, Ideal.exp (val_main_v87 (F := Ideal) x0 x1 x2 x3 x4 x5 x6 x7 x8 x9 x10 x11 x12 x13 x14 (ix2 r k)
          - Cert.Sage.rowMax (fun k : Fin 40 => val_main_v87 (F := Ideal) x0 x1 x2 x3 x4 x5 x6 x7 x8 x9 x10 x11 x12 x13 x14 (ix2 r k))) := by
  rw [val_main_call7_v7_apply, val_main_call7_cst_1_apply]
  have e : ∀ k : Fin 40, idx_main_call7_v7 (ix1 r) k = ix2 r k := fun k =>
    funext fun a => Fin.ext (by match a with | ⟨0, _⟩ => rfl | ⟨1, _⟩ => rfl)
  simp only [e, val_main_call7_v6_apply, shifted_apply, Ideal.hostUnary_exp_def, Ideal.ofBits_def]
  rw [Ideal.ofBits_zero_f32, zero_add]

/-- The reference's classifier is the specification's, on whatever features the three layers produce. -/
theorem head_eq :
    val_main_v88 (F := Ideal) x0 x1 x2 x3 x4 x5 x6 x7 x8 x9 x10 x11 x12 x13 x14
      = Cert.Sage.head (val_main_v78 (F := Ideal) x0 x1 x2 x3 x4 x5 x6 x7 x8 x9 x10) x11 x12 x13 x14 := by
  funext i
  obtain ⟨r, q, rfl⟩ : ∃ (r : Fin 50000) (q : Fin 40), i = ix2 r q := ⟨i 0, i 1, eq_ix2 i⟩
  rw [val_main_v88_apply, val_main_call7_v10_apply, val_main_call7_v9_apply, val_main_call7_v8_apply]
  have e : idx_main_call7_v8 (idx_main_call7_v10 (ix2 r q)) = ix1 r :=
    funext fun a => Fin.ext (by match a with | ⟨0, _⟩ => rfl)
  rw [e, sumExp_apply, shifted_apply]
  simp only [logit_apply, Ideal.subf_def, Ideal.hostUnary_log_def]
  rfl

end Stages

end Cert.ReferenceIdeal.RefValue

end
-- ==== Proof.lean ====
/-
  A three-layer mean-aggregating graph network with a two-layer classifier and a row-wise log-softmax, computed two
  ways: by a program of four tiled kernels with the neighbour gather and scatter-add on the host between them, and by
  a plain host program. The claim: both run and leave their arguments alone, and on the extended reals their results
  are equal entry by entry.

  The two programs gather and scatter-add with the same host operations on the same operands, so those stay opaque.
  They differ in three ways, none of which changes an entry: the kernels take each matrix product block by block over
  5000 rows where the host takes it whole (the same sum over the 128 contracted coordinates at every entry); a bias
  reaches a kernel as a one-row matrix and is spread inside it, where the host spreads it itself; and the neighbour
  average is the edge sum TIMES the reciprocal of the clipped in-degree in one program and the edge sum DIVIDED by it
  in the other. The clipped in-degree is a maximum with one, hence not zero, and off zero the product with the
  reciprocal is the quotient on every extended real, the infinities included: the precondition is never opened.
-/
import proofs.«165760_j91216515432812_1_alg».proof.Defs
import proofs.«165760_j91216515432812_1_alg».proof.Proof.Gen.Kernel
import proofs.«165760_j91216515432812_1_alg».proof.Proof.Gen.Kernel.Frame
import proofs.«165760_j91216515432812_1_alg».proof.Proof.Gen.KernelIdeal
import proofs.«165760_j91216515432812_1_alg».proof.Proof.Gen.KernelIdeal.Frame
import proofs.«165760_j91216515432812_1_alg».proof.Proof.Gen.ReferenceIdeal
import proofs.«165760_j91216515432812_1_alg».proof.Proof.Gen.Pre_finite_inputs
import proofs.«165760_j91216515432812_1_alg».proof.Proof.KernelRun
import proofs.«165760_j91216515432812_1_alg».proof.Proof.KernelValue
import proofs.«165760_j91216515432812_1_alg».proof.Proof.RefRunP
import proofs.«165760_j91216515432812_1_alg».proof.Proof.RefReadP
import proofs.«165760_j91216515432812_1_alg».proof.Proof.RefLayers
import proofs.«165760_j91216515432812_1_alg».proof.Proof.RefHead
import proofs.«165760_j91216515432812_1_alg».proof.Proof.Net
import proofs.«165760_j91216515432812_1_alg».proof.Proof.Aggregate
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The host program runs and leaves its arguments alone: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network's output, the kernels' over the
    multiply-by-reciprocal aggregation and the host's over the dividing one; the two aggregations are one function. -/
theorem algebraic : Cert.algebraic_KernelIdeal_ReferenceIdeal := by
  intro m ρ m' ρ' _ hagree
  refine ⟨fun c => Cert.Sage.net (Cert.KernelIdeal.NetValue.aggK m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.NetValue.result m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v88_eq,
      Cert.ReferenceIdeal.RefValue.ref_value _ _ _ _ _ _ _ _ _ _ _ _ _ _ _
        (Cert.ReferenceIdeal.RefValue.head_eq _ _ _ _ _ _ _ _ _ _ _ _ _ _ _),
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.Sage.net_congr _ _ (fun y => Cert.KernelIdeal.Agg.aggMul_eq_aggDiv y _ _) _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
